-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x9 : Shape := ⟨2, ![4000000, 9]⟩
abbrev S4000000 : Shape := ⟨1, ![4000000]⟩
abbrev S9 : Shape := ⟨1, ![9]⟩
abbrev S_ : Shape := ⟨0, ![]⟩

class Facts : Prop where
  bcast_S_S4000000x9 : S_.BroadcastsInDim S4000000x9 (![] : Fin 0 → Fin S4000000x9.rank)
  reducesTo_S4000000x9_S_d0_1 : S4000000x9.ReducesTo [0, 1] S_
  h_S_ : 0 < S_.numel
  bcast_S_S9 : S_.BroadcastsInDim S9 (![] : Fin 0 → Fin S9.rank)
  reducesTo_S9_S_d0 : S9.ReducesTo [0] S_
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S4000000x9 .f32) (main_arg1 : IVec S4000000 32) (main_arg2 : FVec F S9 .f32) : IVec S_ 1 :=
  let main_v0 : FVec F S4000000x9 .f32 := Host.absf main_arg0
  let main_cst : FVec F S_ .f32 := constant S_ .f32 0x7F800000#32
  let main_v1 : FVec F S4000000x9 .f32 := broadcastInDim S4000000x9 ![] bcast_S_S4000000x9 main_cst
  let main_v2 : IVec S4000000x9 1 := cmpf .olt main_v0 main_v1
  let main_c : IVec S_ 1 := constantI S_ 1 1#1
  let main_v3 : IVec S_ 1 := (fun x v => Host.reduce IntOp.andi x v reducesTo_S4000000x9_S_d0_1 h_S_) main_v2 main_c
  let main_v4 : FVec F S9 .f32 := Host.absf main_arg2
  let main_cst_0 : FVec F S_ .f32 := constant S_ .f32 0x7F800000#32
  let main_v5 : FVec F S9 .f32 := broadcastInDim S9 ![] bcast_S_S9 main_cst_0
  let main_v6 : IVec S9 1 := cmpf .olt main_v4 main_v5
  let main_c_1 : IVec S_ 1 := constantI S_ 1 1#1
  let main_v7 : IVec S_ 1 := (fun x v => Host.reduce IntOp.andi x v reducesTo_S9_S_d0 h_S_) main_v6 main_c_1
  let main_v8 : IVec S_ 1 := andi main_v3 main_v7
  let main_c_2 : IVec S_ 32 := constantI S_ 32 0#32
  let main_v9 : IVec S4000000 32 := broadcastInDim S4000000 ![] bcast_S_S4000000 main_c_2
  let main_v10 : IVec S4000000 1 := cmpi .sge main_arg1 main_v9
  let main_c_3 : IVec S_ 32 := constantI S_ 32 9#32
  let main_v11 : IVec S4000000 32 := broadcastInDim S4000000 ![] bcast_S_S4000000 main_c_3
  let main_v12 : IVec S4000000 1 := cmpi .slt main_arg1 main_v11
  let main_v13 : IVec S4000000 1 := andi main_v10 main_v12
  let main_c_4 : IVec S_ 1 := constantI S_ 1 1#1
  let main_v14 : IVec S_ 1 := (fun x v => Host.reduce IntOp.andi x v reducesTo_S4000000_S_d0 h_S_) main_v13 main_c_4
  let main_v15 : IVec S_ 1 := andi main_v8 main_v14
  main_v15
-- ==== Kernel.lean ====
abbrev S4000000x9 : Shape := ⟨2, ![4000000, 9]⟩
abbrev S4000000 : Shape := ⟨1, ![4000000]⟩
abbrev S9 : Shape := ⟨1, ![9]⟩
abbrev S9x4000000 : Shape := ⟨2, ![9, 4000000]⟩
abbrev S1x4000000 : Shape := ⟨2, ![1, 4000000]⟩
abbrev S9x1 : Shape := ⟨2, ![9, 1]⟩
abbrev S2x1x1 : Shape := ⟨3, ![2, 1, 1]⟩
abbrev S9x16000 : Shape := ⟨2, ![9, 16000]⟩
abbrev S1x16000 : Shape := ⟨2, ![1, 16000]⟩
abbrev S1x1x1 : Shape := ⟨3, ![1, 1, 1]⟩
abbrev S16000 : Shape := ⟨1, ![16000]⟩
abbrev S1 : Shape := ⟨1, ![1]⟩
abbrev S1x1 : Shape := ⟨2, ![1, 1]⟩
abbrev S_ : Shape := ⟨0, ![]⟩

abbrev nBuf : Space → Nat
  | .hbm => 23
  | .vmem => 11
  | .smem => 0
  | _ => 0

abbrev bufTy : (tb : Table) → Fin (tcTables nBuf tb) → BufTy
  | .hbm, ⟨0, _⟩ => ⟨S4000000x9, .f32⟩
  | .hbm, ⟨1, _⟩ => ⟨S4000000, .i32⟩
  | .hbm, ⟨2, _⟩ => ⟨S9, .f32⟩
  | .hbm, ⟨3, _⟩ => ⟨S9x4000000, .f32⟩
  | .hbm, ⟨4, _⟩ => ⟨S1x4000000, .i32⟩
  | .hbm, ⟨5, _⟩ => ⟨S9x1, .f32⟩
  | .hbm, ⟨6, _⟩ => ⟨S2x1x1, .f32⟩
  | .hbm, ⟨7, _⟩ => ⟨S2x1x1, .f32⟩
  | .hbm, ⟨8, _⟩ => ⟨S1x1x1, .f32⟩
  | .hbm, ⟨9, _⟩ => ⟨S_, .f32⟩
  | .hbm, ⟨10, _⟩ => ⟨S1x1x1, .f32⟩
  | .hbm, ⟨11, _⟩ => ⟨S_, .f32⟩
  | .hbm, ⟨12, _⟩ => ⟨S_, .f32⟩
  | .hbm, ⟨13, _⟩ => ⟨S1x1x1, .f32⟩
  | .hbm, ⟨14, _⟩ => ⟨S_, .f32⟩
  | .hbm, ⟨15, _⟩ => ⟨S1x1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S9x16000, .f32⟩
  | .local _ .vmem, ⟨1, _⟩ => ⟨S9x16000, .f32⟩
  | .local _ .vmem, ⟨2, _⟩ => ⟨S1x16000, .i32⟩
  | .local _ .vmem, ⟨3, _⟩ => ⟨S1x16000, .i32⟩
  | .local _ .vmem, ⟨4, _⟩ => ⟨S9x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x16000, .f32⟩
  | .local _ .vmem, ⟨10, _⟩ => ⟨S1x16000, .f32⟩
  | _, _ => ⟨S4000000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 125], ![false, false]⟩

def k0_cond2 (i : grid0.Coords) : BitVec 1 :=
  let arg1 : BitVec 32 := BitVec.ofNat 32 (i 1).val
  let c124_i32 : BitVec 32 := 124#32
  let v49 : BitVec 1 := Scalar.cmpi .eq arg1 c124_i32
  let v50 : BitVec 32 := Scalar.extui v49
  let c0_i32_19 : BitVec 32 := 0#32
  let v51 : BitVec 1 := Scalar.cmpi .ne v50 c0_i32_19
  v51

def cc0_transform_0 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S9x16000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S9x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S4000000x9_S9x4000000_1_0 : S4000000x9.Transposes [1, 0] S9x4000000
  shapeCasts_S4000000_S1x4000000 : S4000000.ShapeCasts S1x4000000
  shapeCasts_S9_S9x1 : S9.ShapeCasts S9x1
  inb_S1x16000_S1x16000_0_0 : ∀ a, (![0, 0] : Fin 2 → Nat) a + S1x16000.size a ≤ S1x16000.size a
  h_S1x16000 : 0 < S1x16000.numel
  shapeCasts_S1x16000_S1x16000 : S1x16000.ShapeCasts S1x16000
  inb_S9x16000_S9x16000_0_0 : ∀ a, (![0, 0] : Fin 2 → Nat) a + S9x16000.size a ≤ S9x16000.size a
  h_S9x16000 : 0 < S9x16000.numel
  shapeCasts_S9x16000_S9x16000 : S9x16000.ShapeCasts S9x16000
  reduces_S9x16000_S16000 : S9x16000.Reduces [0] S16000
  shapeCasts_S16000_S1x16000 : S16000.ShapeCasts S1x16000
  broadcasts_S1x16000_S9x16000 : S1x16000.Broadcasts S9x16000
  iota_S9x1_d0_w32 : S9x1.Iotas .tc 32 [0]
  broadcasts_S9x1_S9x16000 : S9x1.Broadcasts S9x16000
  natLt_1_32 : 1 < 32
  inb_S9x1_S9x1_0_0 : ∀ a, (![0, 0] : Fin 2 → Nat) a + S9x1.size a ≤ S9x1.size a
  h_S9x1 : 0 < S9x1.numel
  shapeCasts_S9x1_S9x1 : S9x1.ShapeCasts S9x1
  reduces_S1x16000_S1 : S1x16000.Reduces [1] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S9x16000.size a ≤ S9x4000000.size a
  hwx0_0 : ∀ i : grid0.Coords, EltTy.bits .f32 = 32 ∨ (Rect.block (s := S9x4000000) S9x16000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16000.size a ≤ S1x4000000.size a
  hwx0_1 : ∀ i : grid0.Coords, EltTy.bits .i32 = 32 ∨ (Rect.block (s := S1x4000000) S1x16000.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x1.size a ≤ S9x1.size a
  hwx0_2 : ∀ i : grid0.Coords, EltTy.bits .f32 = 32 ∨ (Rect.block (s := S9x1) S9x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

abbrev win0_0 : Pipeline.Window sig grid0 :=
  Pipeline.Window.ofSpec (Memref.whole main_v0) S9x16000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S9x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4000000x9 : Shape := ⟨2, ![4000000, 9]⟩
abbrev S4000000 : Shape := ⟨1, ![4000000]⟩
abbrev S9 : Shape := ⟨1, ![9]⟩
abbrev S_ : Shape := ⟨0, ![]⟩
abbrev S4000000x1 : Shape := ⟨2, ![4000000, 1]⟩
abbrev S4000000x1x1 : Shape := ⟨3, ![4000000, 1, 1]⟩
abbrev S1 : Shape := ⟨1, ![1]⟩
abbrev S1x1x1 : Shape := ⟨3, ![1, 1, 1]⟩

abbrev nBuf : Space → Nat
  | .hbm => 69
  | .vmem => 0
  | .smem => 0
  | _ => 0

abbrev bufTy : (tb : Table) → Fin (tcTables nBuf tb) → BufTy
  | .hbm, ⟨0, _⟩ => ⟨S4000000x9, .f32⟩
  | .hbm, ⟨1, _⟩ => ⟨S4000000, .i32⟩
  | .hbm, ⟨2, _⟩ => ⟨S9, .f32⟩
  | .hbm, ⟨3, _⟩ => ⟨S_, .f32⟩
  | .hbm, ⟨4, _⟩ => ⟨S4000000, .f32⟩
  | .hbm, ⟨5, _⟩ => ⟨S_, .f32⟩
  | .hbm, ⟨6, _⟩ => ⟨S4000000, .f32⟩
  | .hbm, ⟨7, _⟩ => ⟨S4000000, .f32⟩
  | .hbm, ⟨8, _⟩ => ⟨S4000000x1, .f32⟩
  | .hbm, ⟨9, _⟩ => ⟨S4000000x9, .f32⟩
  | .hbm, ⟨10, _⟩ => ⟨S4000000x9, .f32⟩
  | .hbm, ⟨11, _⟩ => ⟨S4000000x9, .f32⟩
  | .hbm, ⟨12, _⟩ => ⟨S_, .f32⟩
  | .hbm, ⟨13, _⟩ => ⟨S4000000, .f32⟩
  | .hbm, ⟨14, _⟩ => ⟨S4000000x1, .f32⟩
  | .hbm, ⟨15, _⟩ => ⟨S4000000x1, .f32⟩
  | .hbm, ⟨16, _⟩ => ⟨S4000000x9, .f32⟩
  | .hbm, ⟨17, _⟩ => ⟨S4000000x9, .f32⟩
  | .hbm, ⟨18, _⟩ => ⟨S4000000x1, .i32⟩
  | .hbm, ⟨19, _⟩ => ⟨S_, .i32⟩
  | .hbm, ⟨20, _⟩ => ⟨S4000000x1, .i32⟩
  | .hbm, ⟨21, _⟩ => ⟨S4000000x1, .i1⟩
  | .hbm, ⟨22, _⟩ => ⟨S_, .i32⟩
  | .hbm, ⟨23, _⟩ => ⟨S4000000x1, .i32⟩
  | .hbm, ⟨24, _⟩ => ⟨S4000000x1, .i32⟩
  | .hbm, ⟨25, _⟩ => ⟨S4000000x1, .i32⟩
  | .hbm, ⟨26, _⟩ => ⟨S4000000x1x1, .i32⟩
  | .hbm, ⟨27, _⟩ => ⟨S1, .i32⟩
  | .hbm, ⟨28, _⟩ => ⟨S_, .i32⟩
  | .hbm, ⟨29, _⟩ => ⟨S4000000x1x1, .i32⟩
  | .hbm, ⟨30, _⟩ => ⟨S4000000x1x1, .i1⟩
  | .hbm, ⟨31, _⟩ => ⟨S1x1x1, .i32⟩
  | .hbm, ⟨32, _⟩ => ⟨S4000000x1x1, .i32⟩
  | .hbm, ⟨33, _⟩ => ⟨S4000000x1x1, .i1⟩
  | .hbm, ⟨34, _⟩ => ⟨S4000000x1x1, .i1⟩
  | .hbm, ⟨35, _⟩ => ⟨S_, .i1⟩
  | .hbm, ⟨36, _⟩ => ⟨S4000000x1, .i1⟩
  | .hbm, ⟨37, _⟩ => ⟨S4000000x1, .f32⟩
  | .hbm, ⟨38, _⟩ => ⟨S_, .f32⟩
  | .hbm, ⟨39, _⟩ => ⟨S4000000x1, .f32⟩
  | .hbm, ⟨40, _⟩ => ⟨S4000000x1, .f32⟩
  | .hbm, ⟨41, _⟩ => ⟨S4000000, .f32⟩
  | .hbm, ⟨42, _⟩ => ⟨S_, .i32⟩
  | .hbm, ⟨43, _⟩ => ⟨S4000000, .i32⟩
  | .hbm, ⟨44, _⟩ => ⟨S4000000, .i1⟩
  | .hbm, ⟨45, _⟩ => ⟨S_, .i32⟩
  | .hbm, ⟨46, _⟩ => ⟨S4000000, .i32⟩
  | .hbm, ⟨47, _⟩ => ⟨S4000000, .i32⟩
  | .hbm, ⟨48, _⟩ => ⟨S4000000, .i32⟩
  | .hbm, ⟨49, _⟩ => ⟨S4000000x1, .i32⟩
  | .hbm, ⟨50, _⟩ => ⟨S4000000, .f32⟩
  | .hbm, ⟨51, _⟩ => ⟨S4000000, .f32⟩
  | .hbm, ⟨52, _⟩ => ⟨S4000000, .f32⟩
  | .hbm, ⟨53, _⟩ => ⟨S_, .f32⟩
  | .hbm, ⟨54, _⟩ => ⟨S4000000, .f32⟩
  | .hbm, ⟨55, _⟩ => ⟨S4000000, .i1⟩
  | .hbm, ⟨56, _⟩ => ⟨S4000000, .i32⟩
  | .hbm, ⟨57, _⟩ => ⟨S_, .i32⟩
  | .hbm, ⟨58, _⟩ => ⟨S_, .i32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S4000000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_v3 : Ref sig .tc := ⟨.hbm, 41, rfl⟩
abbrev main_c : Ref sig .tc := ⟨.hbm, 42, rfl⟩
abbrev main_v4 : Ref sig .tc := ⟨.hbm, 43, rfl⟩
abbrev main_v5 : Ref sig .tc := ⟨.hbm, 44, rfl⟩
abbrev main_c_0 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_cst : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_c_1 : Ref sig .tc := ⟨.hbm, 57, rfl⟩
abbrev main_v16 : Ref sig .tc := ⟨.hbm, 58, rfl⟩
abbrev main_v17 : Ref sig .tc := ⟨.hbm, 59, rfl⟩
abbrev main_cst_2 : Ref sig .tc := ⟨.hbm, 60, rfl⟩
abbrev main_v18 : Ref sig .tc := ⟨.hbm, 61, rfl⟩
abbrev main_cst_3 : Ref sig .tc := ⟨.hbm, 62, rfl⟩
abbrev main_v19 : Ref sig .tc := ⟨.hbm, 63, rfl⟩
abbrev main_v20 : Ref sig .tc := ⟨.hbm, 64, rfl⟩
abbrev main_cst_4 : Ref sig .tc := ⟨.hbm, 65, rfl⟩
abbrev main_v21 : Ref sig .tc := ⟨.hbm, 66, rfl⟩
abbrev main_cst_5 : Ref sig .tc := ⟨.hbm, 67, rfl⟩
abbrev main_v22 : Ref sig .tc := ⟨.hbm, 68, rfl⟩

abbrev nD : Nat := 1
abbrev τ : Topo := Topo.v7x

variable {F : FTy → Type} [FloatOps F]

class Facts₀ : Prop where
  reducesTo_S4000000x9_S4000000_d1 : S4000000x9.ReducesTo [1] S4000000
  h_S_ : 0 < S_.numel
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S4000000x1_S4000000x9_0_1 : S4000000x1.BroadcastsInDim S4000000x9 (![0, 1] : Fin 2 → Fin S4000000x9.rank)
  bcast_S_S4000000x1 : S_.BroadcastsInDim S4000000x1 (![] : Fin 0 → Fin S4000000x1.rank)
  shapeCasts_S4000000x1_S4000000x1x1 : S4000000x1.ShapeCasts S4000000x1x1
  bcast_S_S4000000x1x1 : S_.BroadcastsInDim S4000000x1x1 (![] : Fin 0 → Fin S4000000x1x1.rank)
  bcast_S1_S1x1x1_2 : S1.BroadcastsInDim S1x1x1 (![2] : Fin 1 → Fin S1x1x1.rank)
  bcast_S1x1x1_S4000000x1x1_0_1_2 : S1x1x1.BroadcastsInDim S4000000x1x1 (![0, 1, 2] : Fin 3 → Fin S4000000x1x1.rank)
  reducesTo_S4000000x1x1_S4000000x1_d2 : S4000000x1x1.ReducesTo [2] S4000000x1
  shapeCasts_S4000000x1_S4000000 : S4000000x1.ShapeCasts S4000000
  natLt_1_32 : 1 < 32
  reducesTo_S4000000_S_d0 : S4000000.ReducesTo [0] S_
  gather_S4000000x9_S4000000x1x1_S4000000x1_n_1_0_0_1_2_11_wf : GatherDims.WF S4000000x9 S4000000x1x1 S4000000x1 [] [1] [0] [1] [0] 2 ![1, 1]
  gather_S9_S4000000x1_S4000000_n_0_n_n_0_1_1_wf : GatherDims.WF S9 S4000000x1 S4000000 [] [0] [] [0] [] 1 ![1]

variable [Facts₀]

def gather_S4000000x9_S4000000x1x1_S4000000x1_n_1_0_0_1_2_11 : GatherDims S4000000x9 S4000000x1x1 S4000000x1 where
  offsetDims := []
  collapsedSliceDims := [1]
  operandBatchingDims := [0]
  startIndicesBatchingDims := [0]
  startIndexMap := [1]
  indexVectorDim := 2
  sliceSizes := ![1, 1]
  wf := gather_S4000000x9_S4000000x1x1_S4000000x1_n_1_0_0_1_2_11_wf
def gather_S9_S4000000x1_S4000000_n_0_n_n_0_1_1 : GatherDims S9 S4000000x1 S4000000 where
  offsetDims := []
  collapsedSliceDims := [0]
  operandBatchingDims := []
  startIndicesBatchingDims := []
  startIndexMap := [0]
  indexVectorDim := 1
  sliceSizes := ![1]
  wf := gather_S9_S4000000x1_S4000000_n_0_n_n_0_1_1_wf

class Facts : Prop extends Facts₀ where

variable [Facts]
-- ==== Proof.RefStages.lean ====
/-
  The reference program's run, read stage by stage. Its @main is a straight line of 66 host operations; every weakly
  fair execution ends with each buffer at the fold of the operations' results over the launch contents. The line is cut
  into four stretches — the row-wise log-softmax (operations 1–15), the gather of it at the labels (16–39), the gather
  of the weights and the product (40–50), the two sums, the count and the two quotients (51–66) — and each stretch is
  read over an ARBITRARY starting contents: what it leaves in the buffer the next stretch needs is that buffer's stage
  function of what it found in the buffers it reads, and it leaves the argument buffers as it found them. Chaining the
  four gives the two results as the last stages of the three arguments.
-/
import proofs.«405455_j32727650795653_2_alg».proof.Proof.RefOps
import proofs.«405455_j32727650795653_2_alg».proof.Proof.RefRead

noncomputable section

open scoped BigOperators

namespace Cert.ReferenceIdeal.Stages

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Operations 1–15: the row-wise log-softmax of the logits. -/
abbrev opsA : List (HloOp τ sig (Elt F)) :=
  [ TRef.nullary (TRef.of (T := ⟨S_, .f32⟩) main_call0_cst) (constant S_ .f32 0xFF800000#32),
    TRef.binary (TRef.of (T := ⟨S4000000x9, .f32⟩) main_arg0) (TRef.of (T := ⟨S_, .f32⟩) main_call0_cst) (TRef.of (T := ⟨S4000000, .f32⟩) main_call0_v0) (fun x v => Host.reduce FloatOps.maximumf x v reducesTo_S4000000x9_S4000000_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4000000, .f32⟩) main_call0_v1) (broadcastInDim S4000000 ![] bcast_S_S4000000),
    TRef.binary (TRef.of (T := ⟨S4000000, .f32⟩) main_call0_v1) (TRef.of (T := ⟨S4000000, .f32⟩) main_call0_v0) (TRef.of (T := ⟨S4000000, .f32⟩) main_call0_v2) maximumf,
    TRef.unary (TRef.of (T := ⟨S4000000, .f32⟩) main_call0_v2) (TRef.of (T := ⟨S4000000x1, .f32⟩) main_call0_v3) (broadcastInDim S4000000x1 ![0] bcast_S4000000_S4000000x1_0),
    TRef.unary (TRef.of (T := ⟨S4000000x1, .f32⟩) main_call0_v3) (TRef.of (T := ⟨S4000000x9, .f32⟩) main_call0_v4) (broadcastInDim S4000000x9 ![0, 1] bcast_S4000000x1_S4000000x9_0_1),
    TRef.binary (TRef.of (T := ⟨S4000000x9, .f32⟩) main_arg0) (TRef.of (T := ⟨S4000000x9, .f32⟩) main_call0_v4) (TRef.of (T := ⟨S4000000x9, .f32⟩) main_call0_v5) subf,
    TRef.unary (TRef.of (T := ⟨S4000000x9, .f32⟩) main_call0_v5) (TRef.of (T := ⟨S4000000x9, .f32⟩) main_call0_v6) Host.exp,
    TRef.nullary (TRef.of (T := ⟨S_, .f32⟩) main_call0_cst_1) (constant S_ .f32 0x00000000#32),
    TRef.binary (TRef.of (T := ⟨S4000000x9, .f32⟩) main_call0_v6) (TRef.of (T := ⟨S_, .f32⟩) main_call0_cst_1) (TRef.of (T := ⟨S4000000, .f32⟩) main_call0_v7) (fun x v => Host.reduceAdd x v reducesTo_S4000000x9_S4000000_d1 h_S_),
    TRef.unary (TRef.of (T := ⟨S4000000, .f32⟩) main_call0_v7) (TRef.of (T := ⟨S4000000x1, .f32⟩) main_call0_v8) (broadcastInDim S4000000x1 ![0] bcast_S4000000_S4000000x1_0),
    TRef.unary (TRef.of (T := ⟨S4000000x1, .f32⟩) main_call0_v8) (TRef.of (T := ⟨S4000000x1, .f32⟩) main_call0_v9) Host.log,
    TRef.unary (TRef.of (T := ⟨S4000000x1, .f32⟩) main_call0_v9) (TRef.of (T := ⟨S4000000x9, .f32⟩) main_call0_v10) (broadcastInDim S4000000x9 ![0, 1] bcast_S4000000x1_S4000000x9_0_1),
    TRef.binary (TRef.of (T := ⟨S4000000x9, .f32⟩) main_call0_v5) (TRef.of (T := ⟨S4000000x9, .f32⟩) main_call0_v10) (TRef.of (T := ⟨S4000000x9, .f32⟩) main_v0) subf ]

/-- Operations 16–39: the label column, its wrap and range test, the gather of the log-softmax at it, the fill, the reshape. -/
abbrev opsB : List (HloOp τ sig (Elt F)) :=
  [ unary main_arg1 main_v1 (broadcastInDim S4000000x1 ![0] bcast_S4000000_S4000000x1_0 : (⟨S4000000, .i32⟩ : BufTy).Contents (Elt F) → (⟨S4000000x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4000000x1, .i32⟩) main_call1_v0) (broadcastInDim S4000000x1 ![] bcast_S_S4000000x1),
    TRef.binary (TRef.of (T := ⟨S4000000x1, .i32⟩) main_v1) (TRef.of (T := ⟨S4000000x1, .i32⟩) main_call1_v0) (TRef.of (T := ⟨S4000000x1, .i1⟩) main_call1_v1) (cmpi .slt),
    TRef.nullary (TRef.of (T := ⟨S_, .i32⟩) main_call1_c_0) (constantI S_ 32 9#32),
    TRef.unary (TRef.of (T := ⟨S_, .i32⟩) main_call1_c_0) (TRef.of (T := ⟨S4000000x1, .i32⟩) main_call1_v2) (broadcastInDim S4000000x1 ![] bcast_S_S4000000x1),
    TRef.binary (TRef.of (T := ⟨S4000000x1, .i32⟩) main_v1) (TRef.of (T := ⟨S4000000x1, .i32⟩) main_call1_v2) (TRef.of (T := ⟨S4000000x1, .i32⟩) main_call1_v3) addi,
    TRef.ternary (TRef.of (T := ⟨S4000000x1, .i1⟩) main_call1_v1) (TRef.of (T := ⟨S4000000x1, .i32⟩) main_call1_v3) (TRef.of (T := ⟨S4000000x1, .i32⟩) main_v1) (TRef.of (T := ⟨S4000000x1, .i32⟩) main_call1_v4) select,
    TRef.reshape (TRef.of (T := ⟨S4000000x1, .i32⟩) main_call1_v4) (TRef.of (T := ⟨S4000000x1x1, .i32⟩) main_call1_v5) rfl shapeCasts_S4000000x1_S4000000x1x1,
    TRef.nullary (TRef.of (T := ⟨S1, .i32⟩) main_call1_c_1) (constantI S1 32 8#32),
    TRef.nullary (TRef.of (T := ⟨S_, .i32⟩) main_call1_c_2) (constantI S_ 32 0#32),
    TRef.unary (TRef.of (T := ⟨S_, .i32⟩) main_call1_c_2) (TRef.of (T := ⟨S4000000x1x1, .i32⟩) main_call1_v6) (broadcastInDim S4000000x1x1 ![] bcast_S_S4000000x1x1),
    TRef.binary (TRef.of (T := ⟨S4000000x1x1, .i32⟩) main_call1_v5) (TRef.of (T := ⟨S4000000x1x1, .i32⟩) main_call1_v6) (TRef.of (T := ⟨S4000000x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4000000x1x1, .i32⟩) main_call1_v9) (broadcastInDim S4000000x1x1 ![0, 1, 2] bcast_S1x1x1_S4000000x1x1_0_1_2),
    TRef.binary (TRef.of (T := ⟨S4000000x1x1, .i32⟩) main_call1_v5) (TRef.of (T := ⟨S4000000x1x1, .i32⟩) main_call1_v9) (TRef.of (T := ⟨S4000000x1x1, .i1⟩) main_call1_v10) (cmpi .sle),
    TRef.binary (TRef.of (T := ⟨S4000000x1x1, .i1⟩) main_call1_v7) (TRef.of (T := ⟨S4000000x1x1, .i1⟩) main_call1_v10) (TRef.of (T := ⟨S4000000x1x1, .i1⟩) main_call1_v11) andi,
    TRef.nullary (TRef.of (T := ⟨S_, .i1⟩) main_call1_c_3) (constantI S_ 1 1#1),
    TRef.binary (TRef.of (T := ⟨S4000000x1x1, .i1⟩) main_call1_v11) (TRef.of (T := ⟨S_, .i1⟩) main_call1_c_3) (TRef.of (T := ⟨S4000000x1, .i1⟩) main_call1_v12) (fun x v => Host.reduce IntOp.andi x v reducesTo_S4000000x1x1_S4000000x1_d2 h_S_),
    TRef.binary (TRef.of (T := ⟨S4000000x9, .f32⟩) main_v0) (TRef.of (T := ⟨S4000000x1x1, .i32⟩) main_call1_v5) (TRef.of (T := ⟨S4000000x1, .f32⟩) main_call1_v13) (fun x i => Host.gather gather_S4000000x9_S4000000x1x1_S4000000x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4000000x1, .f32⟩) main_call1_v14) (broadcastInDim S4000000x1 ![] bcast_S_S4000000x1),
    TRef.ternary (TRef.of (T := ⟨S4000000x1, .i1⟩) main_call1_v12) (TRef.of (T := ⟨S4000000x1, .f32⟩) main_call1_v13) (TRef.of (T := ⟨S4000000x1, .f32⟩) main_call1_v14) (TRef.of (T := ⟨S4000000x1, .f32⟩) main_v2) select,
    reshape main_v2 main_v3 rfl shapeCasts_S4000000x1_S4000000 ]

/-- Operations 40–50: the wrapped labels, the gather of the class weights, its negation, the product. -/
abbrev opsC : List (HloOp τ sig (Elt F)) :=
  [ nullary main_c (constantI S_ 32 0#32),
    unary main_c main_v4 (broadcastInDim S4000000 ![] bcast_S_S4000000 : (⟨S_, .i32⟩ : BufTy).Contents (Elt F) → (⟨S4000000, .i32⟩ : BufTy).Contents (Elt F)),
    binary main_arg1 main_v4 main_v5 (cmpi .slt : (⟨S4000000, .i32⟩ : BufTy).Contents (Elt F) → (⟨S4000000, .i32⟩ : BufTy).Contents (Elt F) → (⟨S4000000, .i1⟩ : BufTy).Contents (Elt F)),
    nullary main_c_0 (constantI S_ 32 9#32),
    unary main_c_0 main_v6 (broadcastInDim S4000000 ![] bcast_S_S4000000 : (⟨S_, .i32⟩ : BufTy).Contents (Elt F) → (⟨S4000000, .i32⟩ : BufTy).Contents (Elt F)),
    binary main_arg1 main_v6 main_v7 (addi : (⟨S4000000, .i32⟩ : BufTy).Contents (Elt F) → (⟨S4000000, .i32⟩ : BufTy).Contents (Elt F) → (⟨S4000000, .i32⟩ : BufTy).Contents (Elt F)),
    ternary main_v5 main_v7 main_arg1 main_v8 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v8 main_v9 (broadcastInDim S4000000x1 ![0] bcast_S4000000_S4000000x1_0 : (⟨S4000000, .i32⟩ : BufTy).Contents (Elt F) → (⟨S4000000x1, .i32⟩ : BufTy).Contents (Elt F)),
    binary main_arg2 main_v9 main_v10 ((fun x i => Host.gather gather_S9_S4000000x1_S4000000_n_0_n_n_0_1_1 x i) : (⟨S9, .f32⟩ : BufTy).Contents (Elt F) → (⟨S4000000x1, .i32⟩ : BufTy).Contents (Elt F) → (⟨S4000000, .f32⟩ : BufTy).Contents (Elt F)),
    unary main_v10 main_v11 (Host.negf : (⟨S4000000, .f32⟩ : BufTy).Contents (Elt F) → (⟨S4000000, .f32⟩ : BufTy).Contents (Elt F)),
    binary main_v11 main_v3 main_v12 (mulf : (⟨S4000000, .f32⟩ : BufTy).Contents (Elt F) → (⟨S4000000, .f32⟩ : BufTy).Contents (Elt F) → (⟨S4000000, .f32⟩ : BufTy).Contents (Elt F)) ]

/-- Operations 51–66: the comparison with the threshold, the count, the two sums, the two quotients. -/
abbrev opsD : List (HloOp τ sig (Elt F)) :=
  [ nullary main_cst (constant S_ .f32 0x24E69595#32),
    unary main_cst main_v13 (broadcastInDim S4000000 ![] bcast_S_S4000000 : (⟨S_, .f32⟩ : BufTy).Contents (Elt F) → (⟨S4000000, .f32⟩ : BufTy).Contents (Elt F)),
    binary main_v12 main_v13 main_v14 (cmpf .ogt : (⟨S4000000, .f32⟩ : BufTy).Contents (Elt F) → (⟨S4000000, .f32⟩ : BufTy).Contents (Elt F) → (⟨S4000000, .i1⟩ : BufTy).Contents (Elt F)),
    unary main_v14 main_v15 ((extui 32 · natLt_1_32) : (⟨S4000000, .i1⟩ : BufTy).Contents (Elt F) → (⟨S4000000, .i32⟩ : BufTy).Contents (Elt F)),
    nullary main_c_1 (constantI S_ 32 0#32),
    binary main_v15 main_c_1 main_v16 ((fun x v => Host.reduce IntOp.addi x v reducesTo_S4000000_S_d0 h_S_) : (⟨S4000000, .i32⟩ : BufTy).Contents (Elt F) → (⟨S_, .i32⟩ : BufTy).Contents (Elt F) → (⟨S_, .i32⟩ : BufTy).Contents (Elt F)),
    unary main_v16 main_v17 (sitofp .f32 : (⟨S_, .i32⟩ : BufTy).Contents (Elt F) → (⟨S_, .f32⟩ : BufTy).Contents (Elt F)),
    nullary main_cst_2 (constant S_ .f32 0x00000000#32),
    binary main_v12 main_cst_2 main_v18 ((fun x v => Host.reduceAdd x v reducesTo_S4000000_S_d0 h_S_) : (⟨S4000000, .f32⟩ : BufTy).Contents (Elt F) → (⟨S_, .f32⟩ : BufTy).Contents (Elt F) → (⟨S_, .f32⟩ : BufTy).Contents (Elt F)),
    nullary main_cst_3 (constant S_ .f32 0x24E69595#32),
    binary main_v17 main_cst_3 main_v19 (addf : (⟨S_, .f32⟩ : BufTy).Contents (Elt F) → (⟨S_, .f32⟩ : BufTy).Contents (Elt F) → (⟨S_, .f32⟩ : BufTy).Contents (Elt F)),
    binary main_v18 main_v19 main_v20 (Host.divf : (⟨S_, .f32⟩ : BufTy).Contents (Elt F) → (⟨S_, .f32⟩ : BufTy).Contents (Elt F) → (⟨S_, .f32⟩ : BufTy).Contents (Elt F)),
    nullary main_cst_4 (constant S_ .f32 0x00000000#32),
    binary main_v12 main_cst_4 main_v21 ((fun x v => Host.reduceAdd x v reducesTo_S4000000_S_d0 h_S_) : (⟨S4000000, .f32⟩ : BufTy).Contents (Elt F) → (⟨S_, .f32⟩ : BufTy).Contents (Elt F) → (⟨S_, .f32⟩ : BufTy).Contents (Elt F)),
    nullary main_cst_5 (constant S_ .f32 0x4A742400#32),
    binary main_v21 main_cst_5 main_v22 (Host.divf : (⟨S_, .f32⟩ : BufTy).Contents (Elt F) → (⟨S_, .f32⟩ : BufTy).Contents (Elt F) → (⟨S_, .f32⟩ : BufTy).Contents (Elt F)) ]

set_option maxRecDepth 8192 in
/-- The program's operation list is the four stretches in order. -/
theorem ops_cut : (Cert.ReferenceIdeal.Value.ops : List (HloOp τ sig (Elt F))) = opsA ++ (opsB ++ (opsC ++ opsD)) := rfl

/-! ## The first stretch -/

/-- A value moved to a typed reference's buffer type and back is the value. -/
theorem ofBuf_toBuf {T : BufTy} (x : TRef sig T) (v : T.Contents (Elt F)) : x.ofBuf (x.toBuf v) = v := by
  obtain ⟨r, h, h1, h2⟩ := x
  subst h
  rfl

theorem A_v0 (W : Valuation τ sig (Elt F)) :
    after opsA W (Proc.devRef .tc main_v0) = val_main_v0 (F := F) (W (Proc.devRef .tc main_arg0)) := by
  -- the fold is evaluated on an equation whose other side is opaque; the moves between a buffer's type and its value's
  -- type cancel in pairs, the few left at the ends are along `rfl`; what is left is the stage, by unfolding
  have key : ∀ X, X = after opsA W (Proc.devRef .tc main_v0) → X = val_main_v0 (F := F) (W (Proc.devRef .tc main_arg0)) := by
    intro X h
    simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at h
    simp only [ofBuf_toBuf] at h
    simp only [TRef.ofBuf, TRef.toBuf, cast_eq] at h
    subst h
    rfl
  exact key _ rfl

theorem A_arg1 (W : Valuation τ sig (Elt F)) : after opsA W (Proc.devRef .tc main_arg1) = W (Proc.devRef .tc main_arg1) := by
  after_results_simp
theorem A_arg2 (W : Valuation τ sig (Elt F)) : after opsA W (Proc.devRef .tc main_arg2) = W (Proc.devRef .tc main_arg2) := by
  after_results_simp

/-! ## The second stretch -/

theorem B_v3 (W : Valuation τ sig (Elt F)) (x0 : (⟨S4000000x9, .f32⟩ : BufTy).Contents (Elt F))
    (h0 : W (Proc.devRef .tc main_v0) = val_main_v0 (F := F) x0) :
    after opsB W (Proc.devRef .tc main_v3) = val_main_v3 (F := F) x0 (W (Proc.devRef .tc main_arg1)) := by
  have key : ∀ X, X = after opsB W (Proc.devRef .tc main_v3) → X = val_main_v3 (F := F) x0 (W (Proc.devRef .tc main_arg1)) := by
    intro X h
    simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at h
    simp only [ofBuf_toBuf] at h
    simp only [TRef.ofBuf, TRef.toBuf, cast_eq] at h
    rw [h0] at h
    subst h
    rfl
  exact key _ rfl

theorem B_arg1 (W : Valuation τ sig (Elt F)) : after opsB W (Proc.devRef .tc main_arg1) = W (Proc.devRef .tc main_arg1) := by
  after_results_simp
theorem B_arg2 (W : Valuation τ sig (Elt F)) : after opsB W (Proc.devRef .tc main_arg2) = W (Proc.devRef .tc main_arg2) := by
  after_results_simp

/-! ## The third stretch -/

theorem C_v12 (W : Valuation τ sig (Elt F)) (x0 : (⟨S4000000x9, .f32⟩ : BufTy).Contents (Elt F))
    (h3 : W (Proc.devRef .tc main_v3) = val_main_v3 (F := F) x0 (W (Proc.devRef .tc main_arg1))) :
    after opsC W (Proc.devRef .tc main_v12)
      = val_main_v12 (F := F) x0 (W (Proc.devRef .tc main_arg1)) (W (Proc.devRef .tc main_arg2)) := by
  after_results_simp
  rw [h3]
  rfl

/-! ## The fourth stretch -/

theorem D_v20 (W : Valuation τ sig (Elt F)) (x0 : (⟨S4000000x9, .f32⟩ : BufTy).Contents (Elt F))
    (x1 : (⟨S4000000, .i32⟩ : BufTy).Contents (Elt F)) (x2 : (⟨S9, .f32⟩ : BufTy).Contents (Elt F))
    (h12 : W (Proc.devRef .tc main_v12) = val_main_v12 (F := F) x0 x1 x2) :
    after opsD W (Proc.devRef .tc main_v20) = val_main_v20 (F := F) x0 x1 x2 := by
  after_results_simp
  rw [h12]
  rfl

theorem D_v22 (W : Valuation τ sig (Elt F)) (x0 : (⟨S4000000x9, .f32⟩ : BufTy).Contents (Elt F))
    (x1 : (⟨S4000000, .i32⟩ : BufTy).Contents (Elt F)) (x2 : (⟨S9, .f32⟩ : BufTy).Contents (Elt F))
    (h12 : W (Proc.devRef .tc main_v12) = val_main_v12 (F := F) x0 x1 x2) :
    after opsD W (Proc.devRef .tc main_v22) = val_main_v22 (F := F) x0 x1 x2 := by
  after_results_simp
  rw [h12]
  rfl

/-! ## The whole line -/

/-- After the whole line, from contents `V`, the product buffer holds its stage of the three arguments as `V` has them. -/
theorem whole_v12 (V : Valuation τ sig (Elt F)) :
    after opsC (after opsB (after opsA V)) (Proc.devRef .tc main_v12)
      = val_main_v12 (F := F) (V (Proc.devRef .tc main_arg0)) (V (Proc.devRef .tc main_arg1)) (V (Proc.devRef .tc main_arg2)) := by
  have hB := B_v3 (after opsA V) (V (Proc.devRef .tc main_arg0)) (A_v0 V)
  have hC := C_v12 (after opsB (after opsA V)) (V (Proc.devRef .tc main_arg0)) hB
  rw [B_arg1, B_arg2, A_arg1, A_arg2] at hC
  exact hC

theorem whole_v20 (V : Valuation τ sig (Elt F)) :
    after Cert.ReferenceIdeal.Value.ops V (Proc.devRef .tc main_v20)
      = val_main_v20 (F := F) (V (Proc.devRef .tc main_arg0)) (V (Proc.devRef .tc main_arg1)) (V (Proc.devRef .tc main_arg2)) := by
  rw [ops_cut, after_append, after_append, after_append]
  exact D_v20 _ _ _ _ (whole_v12 V)

theorem whole_v22 (V : Valuation τ sig (Elt F)) :
    after Cert.ReferenceIdeal.Value.ops V (Proc.devRef .tc main_v22)
      = val_main_v22 (F := F) (V (Proc.devRef .tc main_arg0)) (V (Proc.devRef .tc main_arg1)) (V (Proc.devRef .tc main_arg2)) := by
  rw [ops_cut, after_append, after_append, after_append]
  exact D_v22 _ _ _ _ (whole_v12 V)

/-- No operation writes an argument buffer. -/
theorem whole_arg0 (V : Valuation τ sig (Elt F)) : after Cert.ReferenceIdeal.Value.ops V (Proc.devRef .tc main_arg0) = V (Proc.devRef .tc main_arg0) := by
  after_results_simp
theorem whole_arg1 (V : Valuation τ sig (Elt F)) : after Cert.ReferenceIdeal.Value.ops V (Proc.devRef .tc main_arg1) = V (Proc.devRef .tc main_arg1) := by
  after_results_simp
theorem whole_arg2 (V : Valuation τ sig (Elt F)) : after Cert.ReferenceIdeal.Value.ops V (Proc.devRef .tc main_arg2) = V (Proc.devRef .tc main_arg2) := by
  after_results_simp

set_option maxRecDepth 8192 in
/-- On every device, from any memory with zero counters: every weakly fair execution of the reference's @main terminates
    with its two results at their last stages of the three arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20)
          = val_main_v20 (F := F) (m ((c.tc : Thread nD τ).loc main_arg0)) (m ((c.tc : Thread nD τ).loc main_arg1)) (m ((c.tc : Thread nD τ).loc main_arg2))
      ∧ r.2.mem ((c.tc : Thread nD τ).loc main_v22)
          = val_main_v22 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v20).trans (whole_v20 (launchContents m c)),
      (h c main_v22).trans (whole_v22 (launchContents m c)),
      (h c main_arg0).trans (whole_arg0 (launchContents m c)),
      (h c main_arg1).trans (whole_arg1 (launchContents m c)),
      (h c main_arg2).trans (whole_arg2 (launchContents m c))⟩)
    (run_seq Cert.ReferenceIdeal.Value.scopedRefs_eq Cert.ReferenceIdeal.Value.scopedSems_eq defs main
      (fun _ => Cert.ReferenceIdeal.Value.ops) Cert.ReferenceIdeal.Value.main_eq (fun _ => Cert.ReferenceIdeal.Value.ops_sub) m ρ)

end Cert.ReferenceIdeal.Stages

end
-- ==== Proof.LossSpec.lean ====
/-
  The class-weighted cross-entropy loss of 4,000,000 rows over 9 classes, as one function of the three argument
  arrays over the extended reals: the logits `X : [4000000, 9]`, the class labels `T : [4000000]` (32-bit words) and
  the class weights `W : [9]`.

  For one row `x : Fin 9 → EReal` with label `t`:  `m = max_k x k`,  `lse = log (∑_k exp (x k - m))`  and the row's
  loss is  `(-(w t)) * ((x t - m) - lse)`.  The two results are  `S / (C + ε)`  and  `S / 4000000`,  where `S` is the
  sum of the row losses, `C` the number of rows whose loss exceeds `ε` (counted as a real number), and `ε` the
  f32 word `0x24E69595`.

  A label word `b` names the class `b.toNat % 9`; for a word in the label range `0 ≤ b < 9` that is `b` itself, and the
  definitions below are total so that no statement about them needs the range as a side condition.

  Rows are numbered by natural numbers and summed over `Finset.range`, so that the regrouping of the 4,000,000 rows into
  2 × 125 blocks of 16000 (row `(c·125 + s)·16000 + j`) is arithmetic on sums over ranges.
-/
import Idealize.ShloMosaic.PureOps.Ideal
import Idealize.ShloMosaic.Lib.ValueIdx
import Mathlib.Algebra.BigOperators.Intervals

noncomputable section

open scoped BigOperators

namespace Cert.LossSpec

open Idealize.ShloMosaic Idealize.ShloMosaic.ValueIdx

/-! ## One row -/

/-- The largest of a row's nine logits: the fold of `max` from `-∞`. -/
def rowMax (x : Fin 9 → EReal) : EReal := (Finset.univ : Finset (Fin 9)).fold max ⊥ x

/-- The logarithm of the sum of the exponentials of the row's logits, each shifted by the row's maximum. -/
def rowLse (x : Fin 9 → EReal) : EReal := Ideal.log (∑ k : Fin 9, Ideal.exp (x k - rowMax x))

/-- The weighted negative log-probability of class `t` in the row. -/
def rowLoss (x w : Fin 9 → EReal) (t : Fin 9) : EReal := (-(w t)) * ((x t - rowMax x) - rowLse x)

/-- The class a label word names. -/
def cls (b : BitVec 32) : Fin 9 := ⟨b.toNat % 9, Nat.mod_lt _ (by decide)⟩

/-- The threshold `ε`: the f32 word both programs compare a loss with and add to the count. -/
def eps : EReal := Ideal.ofBits .f32 0x24E69595#32

/-- `1` if the loss exceeds `ε`, else `0`: the comparison's bit, widened to a word and read as a real number. -/
def nzOf (l : EReal) : EReal := ((((Ideal.cmp .ogt l eps).setWidth 32).toInt : ℝ) : EReal)

/-! ## The arrays -/

section Arrays

variable (X : (⟨2, ![4000000, 9]⟩ : Shape).Idx → EReal) (T : (⟨1, ![4000000]⟩ : Shape).Idx → BitVec 32)
  (W : (⟨1, ![9]⟩ : Shape).Idx → EReal)

/-- Every label is in the label range. -/
def InRange : Prop := ∀ i : Fin 4000000, (T (ix1 i)).toNat < 9

/-- Row `i`'s loss. -/
def lossAt (i : Fin 4000000) : EReal :=
  rowLoss (fun k => X (ix2 i k)) (fun k => W (ix1 k)) (cls (T (ix1 i)))

/-- Row `n`'s loss, for a natural number `n` (zero past the last row). -/
def lossN (n : ℕ) : EReal := if h : n < 4000000 then lossAt X T W ⟨n, h⟩ else 0

/-- The sum of the row losses. -/
def totalLoss : EReal := ∑ n ∈ Finset.range 4000000, lossN X T W n

/-- The number of rows whose loss exceeds `ε`. -/
def totalNz : EReal := ∑ n ∈ Finset.range 4000000, nzOf (lossN X T W n)

/-- The first result: the sum of the losses over the count of the losses above `ε`, plus `ε`. -/
def res0 : EReal := Ideal.div (totalLoss X T W) (totalNz X T W + eps)

/-- The second result: the mean loss (the divisor is the f32 word of 4000000). -/
def res1 : EReal := Ideal.div (totalLoss X T W) (Ideal.ofBits .f32 0x4A742400#32)

end Arrays

/-! ## Regrouping the rows -/

/-- A sum over `a * b` consecutive numbers is the sum over `a` runs of `b`. -/
theorem sum_range_mul {M : Type*} [AddCommMonoid M] (f : ℕ → M) (a b : ℕ) :
    ∑ n ∈ Finset.range (a * b), f n = ∑ p ∈ Finset.range a, ∑ q ∈ Finset.range b, f (p * b + q) := by
  induction a with
  | zero => simp
  | succ a ih =>
    rw [Nat.succ_mul, Finset.sum_range_add, ih, Finset.sum_range_succ]

/-- The 4,000,000 rows as 2 cores × 16000 lanes × 125 steps: row `(c·125 + s)·16000 + j`. -/
theorem sum_rows_regroup {M : Type*} [AddCommMonoid M] (f : ℕ → M) :
    ∑ n ∈ Finset.range 4000000, f n
      = ∑ c ∈ Finset.range 2, ∑ j ∈ Finset.range 16000, ∑ s ∈ Finset.range 125, f ((c * 125 + s) * 16000 + j) := by
  rw [show (4000000 : ℕ) = 250 * 16000 from rfl, sum_range_mul f 250 16000,
    show (250 : ℕ) = 2 * 125 from rfl, sum_range_mul _ 2 125]
  refine Finset.sum_congr rfl fun c _ => ?_
  rw [Finset.sum_comm]

end Cert.LossSpec

end
-- ==== Proof.RefRow.lean ====
/-
  One row of the reference, over the extended reals: `log_softmax` of the row (the row shifted by its maximum, minus the
  log of the sum of the shifted row's exponentials) gathered at the row's label, times the negated class weight gathered
  at the label. For a label in the label range neither gather wraps (the label is not negative), clamps or fills (it is
  at most 8), so the row's value is the specification's row loss.
-/
import proofs.«405455_j32727650795653_2_alg».proof.Proof.RefRead
import proofs.«405455_j32727650795653_2_alg».proof.Proof.LossSpec
import Idealize.ShloMosaic.PureOps.Ideal.Laws
import Idealize.ShloMosaic.Lib.Pipeline.Value
import Idealize.ShloMosaic.Lib.ValueIdx
import Idealize.ShloMosaic.Lib.StableHlo.Predicate

noncomputable section

open scoped BigOperators

namespace Cert.ReferenceIdeal.RefRow

open Cert.ReferenceIdeal Cert.ReferenceIdeal.Gen Cert.ReferenceIdeal.Read Cert.LossSpec
open Idealize.ShloMosaic Idealize.ShloMosaic.ValueIdx

/-! ## A label word in the label range -/

/-- Read signed, a word below 9 is its value. -/
theorem toInt_of_lt (t : BitVec 32) (ht : t.toNat < 9) : t.toInt = (t.toNat : ℤ) := by
  rw [BitVec.toInt_eq_toNat_cond, if_pos (by omega)]

/-- It is not negative, … -/
theorem slt_zero (t : BitVec 32) (ht : t.toNat < 9) : IntOp.cmpi .slt t 0#32 = 0#1 := by
  rcases BitVec.eq_zero_or_eq_one (IntOp.cmpi .slt t 0#32) with h | h
  · exact h
  · exfalso
    rw [IntOp.cmpi_slt, toInt_of_lt t ht] at h
    have z : (0#32 : BitVec 32).toInt = 0 := by decide
    rw [z] at h
    omega

/-- … at least 0 … -/
theorem sge_zero (t : BitVec 32) (ht : t.toNat < 9) : IntOp.cmpi .sge t 0#32 = 1#1 := by
  rw [IntOp.cmpi_sge, toInt_of_lt t ht]
  have z : (0#32 : BitVec 32).toInt = 0 := by decide
  rw [z]
  omega

/-- … and at most 8. -/
theorem sle_eight (t : BitVec 32) (ht : t.toNat < 9) : IntOp.cmpi .sle t 8#32 = 1#1 := by
  rw [IntOp.cmpi_sle, toInt_of_lt t ht]
  have z : (8#32 : BitVec 32).toInt = 8 := by decide
  rw [z]
  omega

/-- The class it names is its value. -/
theorem cls_val (t : BitVec 32) (ht : t.toNat < 9) : (cls t).val = t.toNat := Nat.mod_eq_of_lt ht

/-- Clamped into the classes, read signed, it is still its value. -/
theorem clamp_eq (t : BitVec 32) (ht : t.toNat < 9) : min t.toInt.toNat (9 - 1) = t.toNat := by
  rw [toInt_of_lt t ht, Int.toNat_natCast]
  omega

/-- A fold over an index set of one element is one step from the initial value. -/
theorem fold_fin_one {α : Type} (f : α → α → α) [Std.Commutative f] [Std.Associative f] (b : α) {n : Nat} (hn : n = 1)
    (g : Fin n → α) : (Finset.univ : Finset (Fin n)).fold f b g = f (g ⟨0, by omega⟩) b := by
  subst hn
  rw [Finset.univ_unique, Finset.fold_singleton]
  rfl

section Pieces

variable (x0 : FVec Ideal S4000000x9 .f32) (x1 : IVec S4000000 32) (x2 : FVec Ideal S9 .f32)

/-! ## The class weight of the row's label -/

/-- The label the weight gather is handed for row `i`: not negative, so not wrapped. -/
theorem v8_apply (i : Fin 4000000) (ht : (x1 (ix1 i)).toNat < 9) :
    val_main_v8 (F := Ideal) x1 (ix1 i) = x1 (ix1 i) := by
  rw [val_main_v8_apply, val_main_v5_apply, val_main_v4_apply, val_main_c_apply, slt_zero _ ht, select_zero]

/-- The same, in the column of start indices. -/
theorem v9_apply (i : Fin 4000000) (ht : (x1 (ix1 i)).toNat < 9) (y : S4000000x1.Idx) (hy : (y 0).val = i.val) :
    val_main_v9 (F := Ideal) x1 y = x1 (ix1 i) := by
  rw [val_main_v9_apply]
  have e : idx_main_v9 y = ix1 i := by
    funext a
    match a with
    | ⟨0, _⟩ => exact Fin.ext hy
  rw [e]
  exact v8_apply x1 i ht

/-- The gathered weight is the weight of the label's class: the start index, read signed and clamped into the classes,
    is the label. -/
theorem v10_apply (i : Fin 4000000) (ht : (x1 (ix1 i)).toNat < 9) :
    val_main_v10 (F := Ideal) x1 x2 (ix1 i) = x2 (ix1 (cls (x1 (ix1 i)))) := by
  unfold val_main_v10
  have e := StableHlo.Predicate.gather_take gather_S9_S4000000x1_S4000000_n_0_n_n_0_1_1 rfl rfl rfl rfl x2
    (val_main_v9 (F := Ideal) x1) i (by decide)
  have hi : (Shape.Idx.ofFin i : S4000000.Idx) = ix1 i := by
    funext a
    match a with
    | ⟨0, _⟩ => rfl
  rw [hi] at e
  rw [e]
  refine congrArg x2 ?_
  funext a
  match a with
  | ⟨0, _⟩ =>
    apply Fin.ext
    show min (val_main_v9 (F := Ideal) x1 (StableHlo.Predicate.ixP i)).toInt.toNat (9 - 1) = (cls (x1 (ix1 i))).val
    rw [v9_apply x1 i ht _ rfl, clamp_eq _ ht, cls_val _ ht]

/-! ## The log-softmax of the row -/

/-- The index of the logits over row `i` with class `k` put back is (i, k). -/
theorem lift_row (h : S4000000x9.Reduces [1] S4000000) (i : Fin 4000000) (k : Fin (S4000000x9.size 1)) :
    h.lift (ix1 i) k = ix2 i (⟨k.val, k.isLt⟩ : Fin 9) := by
  funext c
  apply Fin.ext
  match c with
  | ⟨0, _⟩ => rfl
  | ⟨1, _⟩ => rfl

/-- The word the maximum starts from is −∞. -/
theorem negInf_eq : Ideal.ofBits .f32 0xFF800000#32 = (⊥ : EReal) := by
  simp [Ideal.ofBits, Ideal.ieee]

/-- The reduce by maximum over the classes, at row `i`, is the row's maximum. -/
theorem call0_v0_apply (i : Fin 4000000) :
    val_main_call0_v0 (F := Ideal) x0 (ix1 i) = rowMax (fun k => x0 (ix2 i k)) := by
  unfold val_main_call0_v0
  have h : S4000000x9.Reduces [1] S4000000 := by decide
  rw [Host.reduce_eq_fold_single FloatOps.maximumf x0 _ reducesTo_S4000000x9_S4000000_d1 h h_S_]
  have hf : (x0 ∘ h.lift (ix1 i)) = fun k : Fin 9 => x0 (ix2 i k) := funext fun k => congrArg x0 (lift_row h i k)
  have hb : val_main_call0_cst (F := Ideal) (Shape.Idx.first h_S_) = (⊥ : EReal) := negInf_eq
  rw [hb]
  unfold rowMax
  exact congrArg (fun f => Finset.fold max (⊥ : EReal) f (Finset.univ : Finset (Fin 9))) hf

/-- Its maximum with −∞ is itself. -/
theorem call0_v2_apply (i : Fin 4000000) :
    val_main_call0_v2 (F := Ideal) x0 (ix1 i) = rowMax (fun k => x0 (ix2 i k)) := by
  rw [val_main_call0_v2_apply, val_main_call0_v1_apply, val_main_call0_cst_0_apply, call0_v0_apply, Ideal.maximumf_def]
  show max (Ideal.ofBits .f32 0xFF800000#32) _ = _
  rw [negInf_eq]
  exact max_bot_left _

/-- The row shifted by its maximum. -/
theorem call0_v5_apply (i : Fin 4000000) (k : Fin 9) :
    val_main_call0_v5 (F := Ideal) x0 (ix2 i k) = x0 (ix2 i k) - rowMax (fun k => x0 (ix2 i k)) := by
  rw [val_main_call0_v5_apply, val_main_call0_v4_apply, val_main_call0_v3_apply, Ideal.subf_def]
  have e : idx_main_call0_v3 (idx_main_call0_v4 (ix2 i k)) = ix1 i := by
    funext a
    match a with
    | ⟨0, _⟩ => rfl
  rw [e, call0_v2_apply]

/-- The sum of the shifted row's exponentials. -/
theorem call0_v7_apply (i : Fin 4000000) :
    val_main_call0_v7 (F := Ideal) x0 (ix1 i)
      = ∑ k : Fin 9, Ideal.exp (x0 (ix2 i k) - rowMax (fun k => x0 (ix2 i k))) := by
  rw [val_main_call0_v7_apply, val_main_call0_cst_1_apply]
  show Ideal.ofBits .f32 0x00000000#32 + _ = _
  rw [Ideal.ofBits_zero_f32, zero_add]
  refine Finset.sum_congr rfl fun k _ => ?_
  have e : idx_main_call0_v7 (ix1 i) k = ix2 i k := by
    funext a
    match a with
    | ⟨0, _⟩ => rfl
    | ⟨1, _⟩ => rfl
  rw [e, val_main_call0_v6_apply, Ideal.hostUnary_exp_def, call0_v5_apply]

/-- The log-softmax of the row at class `k`. -/
theorem v0_apply (i : Fin 4000000) (k : Fin 9) :
    val_main_v0 (F := Ideal) x0 (ix2 i k)
      = (x0 (ix2 i k) - rowMax (fun k => x0 (ix2 i k))) - rowLse (fun k => x0 (ix2 i k)) := by
  rw [val_main_v0_apply, Ideal.subf_def, call0_v5_apply, val_main_call0_v10_apply, val_main_call0_v9_apply,
    Ideal.hostUnary_log_def, val_main_call0_v8_apply]
  have e : idx_main_call0_v8 (idx_main_call0_v10 (ix2 i k)) = ix1 i := by
    funext a
    match a with
    | ⟨0, _⟩ => rfl
  rw [e, call0_v7_apply]
  rfl

/-! ## The log-probability of the row's label -/

/-- The label the row gather is handed for row `i`: not negative, so not wrapped. -/
theorem call1_v4_apply (i : Fin 4000000) (ht : (x1 (ix1 i)).toNat < 9) (y : S4000000x1.Idx) (hy : (y 0).val = i.val) :
    val_main_call1_v4 (F := Ideal) x1 y = x1 (ix1 i) := by
  rw [val_main_call1_v4_apply, val_main_call1_v1_apply, val_main_v1_apply, val_main_call1_v0_apply,
    val_main_call1_c_apply]
  have e : idx_main_v1 y = ix1 i := by
    funext a
    match a with
    | ⟨0, _⟩ => exact Fin.ext hy
  rw [e, slt_zero _ ht, select_zero]

/-- The same, in the [4000000, 1, 1] array of start indices. -/
theorem call1_v5_apply (i : Fin 4000000) (ht : (x1 (ix1 i)).toNat < 9) (y : S4000000x1x1.Idx) (hy : (y 0).val = i.val) :
    val_main_call1_v5 (F := Ideal) x1 y = x1 (ix1 i) := by
  rw [val_main_call1_v5_apply]
  refine call1_v4_apply x1 i ht _ ?_
  show (((y 0).val * 1 + (y 1).val) * 1 + (y 2).val) / 1 = i.val
  have h1 : (y 1).val < 1 := (y 1).isLt
  have h2 : (y 2).val < 1 := (y 2).isLt
  omega

/-- The label passes the range test of the gather's fill mask, … -/
theorem call1_v11_apply (i : Fin 4000000) (ht : (x1 (ix1 i)).toNat < 9) (y : S4000000x1x1.Idx) (hy : (y 0).val = i.val) :
    val_main_call1_v11 (F := Ideal) x1 y = 1#1 := by
  rw [val_main_call1_v11_apply, val_main_call1_v7_apply, val_main_call1_v10_apply, call1_v5_apply x1 i ht y hy,
    val_main_call1_v6_apply, val_main_call1_c_2_apply, val_main_call1_v9_apply, val_main_call1_v8_apply,
    val_main_call1_c_1_apply, sge_zero _ ht, sle_eight _ ht]
  rfl

/-- … so the mask, the conjunction over the one component of the start index, is 1 at row `i`. -/
theorem call1_v12_apply (i : Fin 4000000) (ht : (x1 (ix1 i)).toNat < 9) :
    val_main_call1_v12 (F := Ideal) x1 (ix2 i 0) = 1#1 := by
  unfold val_main_call1_v12
  have h : S4000000x1x1.Reduces [2] S4000000x1 := by decide
  rw [Host.reduce_eq_fold_single IntOp.andi _ _ reducesTo_S4000000x1x1_S4000000x1_d2 h h_S_]
  rw [fold_fin_one IntOp.andi _ (rfl : S4000000x1x1.size 2 = 1)]
  show IntOp.andi (val_main_call1_v11 (F := Ideal) x1 (h.lift (ix2 i 0) ⟨0, _⟩)) (1#1) = 1#1
  rw [call1_v11_apply x1 i ht _ rfl]
  rfl

local notation "𝕘" => gather_S4000000x9_S4000000x1x1_S4000000x1_n_1_0_0_1_2_11

/-- The row gather, read by hand: on the row axis (a batching axis of operand and start indices alike) it reads row `i`,
    on the class axis (collapsed, the one the start index names) the label clamped into the classes, which is the label. -/
theorem call1_v13_apply (i : Fin 4000000) (ht : (x1 (ix1 i)).toNat < 9) :
    val_main_call1_v13 (F := Ideal) x0 x1 (ix2 i 0) = val_main_v0 (F := Ideal) x0 (ix2 i (cls (x1 (ix1 i)))) := by
  unfold val_main_call1_v13 Host.gather
  refine congrArg (val_main_v0 (F := Ideal) x0) ?_
  have b0 : (0 : Fin 2) ∈ (𝕘).operandBatchingDims :=
    List.mem_singleton.mpr rfl
  have b1 : (1 : Fin 2) ∉ (𝕘).operandBatchingDims := by
    show (1 : Fin 2) ∉ [(0 : Fin 2)]
    decide
  have c1 : (1 : Fin 2) ∈ (𝕘).collapsedSliceDims :=
    List.mem_singleton.mpr rfl
  have m1 : (1 : Fin 2) ∈ (𝕘).startIndexMap :=
    List.mem_singleton.mpr rfl
  funext a
  apply Fin.ext
  match a with
  | ⟨0, _⟩ =>
    show GatherDims.start 𝕘 (ix2 i 0) (val_main_call1_v5 (F := Ideal) x1) (0 : Fin 2) + GatherDims.batchCoord 𝕘 (ix2 i 0) (0 : Fin 2)
      + GatherDims.offCoord 𝕘 (ix2 i 0) (0 : Fin 2) = i.val
    rw [GatherDims.start_batching _ _ _ _ b0,
      GatherDims.offCoord_eq_zero _ _ _ (fun h => ((GatherDims.mem_sKept _ _).1 h).2 b0)]
    unfold GatherDims.batchCoord
    rw [dif_pos b0]
    show 0 + i.val + 0 = i.val
    omega
  | ⟨1, _⟩ =>
    show GatherDims.start 𝕘 (ix2 i 0) (val_main_call1_v5 (F := Ideal) x1) (1 : Fin 2) + GatherDims.batchCoord 𝕘 (ix2 i 0) (1 : Fin 2)
      + GatherDims.offCoord 𝕘 (ix2 i 0) (1 : Fin 2) = (cls (x1 (ix1 i))).val
    rw [GatherDims.batchCoord_eq_zero _ _ _ b1,
      GatherDims.offCoord_eq_zero _ _ _ (fun h => ((GatherDims.mem_sKept _ _).1 h).1 c1)]
    unfold GatherDims.start
    rw [dif_pos m1, call1_v5_apply x1 i ht _ rfl]
    show min (x1 (ix1 i)).toInt.toNat (9 - 1) + 0 + 0 = (cls (x1 (ix1 i))).val
    rw [clamp_eq _ ht, cls_val _ ht]
    omega

end Pieces

/-- Row `i` of the reference's loss vector is the specification's row loss, for labels in the label range. -/
theorem v12_apply (x0 : FVec Ideal S4000000x9 .f32) (x1 : IVec S4000000 32) (x2 : FVec Ideal S9 .f32) (hT : InRange x1)
    (i : Fin 4000000) : val_main_v12 (F := Ideal) x0 x1 x2 (ix1 i) = lossAt x0 x1 x2 i := by
  have ht : (x1 (ix1 i)).toNat < 9 := hT i
  -- the product of the negated gathered weight and the reshaped gathered log-probability
  rw [val_main_v12_apply, val_main_v11_apply, Ideal.hostNegf_def, Ideal.negf_def, Ideal.mulf_def, v10_apply x1 x2 i ht,
    val_main_v3_apply]
  have e : idx_main_v3 (ix1 i) = ix2 i 0 := by
    funext a
    match a with
    | ⟨0, _⟩ => exact Fin.ext (Nat.div_one _)
    | ⟨1, _⟩ => rfl
  -- the fill mask is 1 at the row, so the select keeps the gathered element
  rw [e, val_main_v2_apply, call1_v12_apply x1 i ht, select_one, call1_v13_apply x0 x1 i ht, v0_apply]
  rfl

end Cert.ReferenceIdeal.RefRow

end
-- ==== Proof.LibBitCount.lean ====
/-
  Counting set bits by a sum of words, over the extended reals.

  A sum of 32-bit words whose values stay below 2^31 does not wrap and reads the same as a signed and as an unsigned
  integer. In particular fewer than 2^31 one-bit words, each widened to 32 bits and added as words, sum to a word that,
  read as a signed integer and then as a real number, is the sum of the widened bits so read: the count of the set
  bits. With it: the extended-real image of a finite sum of reals is the sum of the images, and a sum over the indices
  of a one-axis shape is a sum over a range of natural numbers.
-/
import Idealize.ShloMosaic.PureOps.Ideal
import Idealize.ShloMosaic.Lib.ValueIdx
import Idealize.ShloMosaic.Lib.StableHlo.Predicate
import Mathlib.Algebra.BigOperators.Fin

open scoped BigOperators

namespace BitCount

open Idealize.ShloMosaic Idealize.ShloMosaic.ValueIdx Idealize.ShloMosaic.StableHlo.Predicate

/-! ## Extended reals -/

/-- The extended-real image of a finite sum of reals is the sum of the images. -/
theorem coe_sum {ι : Type*} (s : Finset ι) (f : ι → ℝ) :
    ((∑ i ∈ s, f i : ℝ) : EReal) = ∑ i ∈ s, ((f i : ℝ) : EReal) := by
  induction s using Finset.cons_induction with
  | empty => simp
  | cons a s ha ih => rw [Finset.sum_cons, Finset.sum_cons, EReal.coe_add, ih]

/-! ## Word sums that do not wrap -/

/-- A set fold of word addition whose values sum below 2^31 does not wrap into the sign bit: read as a signed integer
    it is the sum of the values read as signed integers. -/
theorem toInt_fold_addi {ι : Type} [DecidableEq ι] (S : Finset ι) (f : ι → BitVec 32)
    (hS : ∑ i ∈ S, (f i).toNat < 2 ^ 31) : (S.fold IntOp.addi 0#32 f).toInt = ∑ i ∈ S, (f i).toInt := by
  have h1 : (S.fold IntOp.addi 0#32 f).toNat = ∑ i ∈ S, (f i).toNat := toNat_fold_addi S f (by omega)
  rw [toInt_eq_toNat_of_lt (by rw [h1]; exact hS), h1, Nat.cast_sum]
  refine Finset.sum_congr rfl fun i hi => ?_
  have hle : (f i).toNat ≤ ∑ i ∈ S, (f i).toNat :=
    Finset.single_le_sum (f := fun i => (f i).toNat) (fun _ _ => Nat.zero_le _) hi
  rw [toInt_eq_toNat_of_lt (by omega)]

/-- The values of widened bits sum to at most their number. -/
theorem sum_toNat_bits_le {ι : Type} (S : Finset ι) (b : ι → BitVec 1) :
    ∑ i ∈ S, ((b i).setWidth 32).toNat ≤ S.card := by
  rw [Finset.card_eq_sum_ones]
  refine Finset.sum_le_sum fun i _ => ?_
  rw [toNat_setWidth_bit]
  split <;> omega

/-- THE COUNT. Fewer than 2^31 one-bit words, each widened to 32 bits and added as words: the sum, read as a signed
    integer and then as an extended real, is the sum of the widened bits so read, each of which is 0 or 1. -/
theorem coe_toInt_fold_bits {ι : Type} [DecidableEq ι] (S : Finset ι) (b : ι → BitVec 1) (hS : S.card < 2 ^ 31) :
    (((S.fold IntOp.addi 0#32 (fun i => (b i).setWidth 32)).toInt : ℝ) : EReal)
      = ∑ i ∈ S, ((((b i).setWidth 32).toInt : ℝ) : EReal) := by
  rw [toInt_fold_addi S _ (lt_of_le_of_lt (sum_toNat_bits_le S b) hS), Int.cast_sum, coe_sum]

/-! ## One-axis index sets -/

/-- A one-axis index set is its coordinate's range … -/
def idxEquiv1 {n : Nat} : (⟨1, ![n]⟩ : Shape).Idx ≃ Fin n where
  toFun i := i 0
  invFun a := ix1 a
  left_inv i := (eq_ix1 i).symm
  right_inv _ := rfl

/-- … so it has as many indices as the axis is long, -/
theorem card_idx1 {n : Nat} : Fintype.card (⟨1, ![n]⟩ : Shape).Idx = n :=
  (Fintype.card_congr idxEquiv1).trans (Fintype.card_fin n)

/-- a sum over it is the sum over the coordinate, -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- and, against a function of the natural numbers that agrees with it coordinate by coordinate, a sum over a range. -/
theorem sum_idx1_range {M : Type*} [AddCommMonoid M] {n : Nat} (f : (⟨1, ![n]⟩ : Shape).Idx → M) (g : ℕ → M)
    (h : ∀ a : Fin n, f (ix1 a) = g a.val) : ∑ i, f i = ∑ k ∈ Finset.range n, g k := by
  rw [sum_idx1, ← Fin.sum_univ_eq_sum_range]
  exact Finset.sum_congr rfl fun a _ => h a

end BitCount
-- ==== Proof.RefLoss.lean ====
/-
  The reference's two results are the specification's: the quotients of the sum of the 4,000,000 row losses by the
  count of the losses above `ε` plus `ε`, and by 4000000. The count is an integer sum of 4,000,000 bits, each widened
  to a 32-bit word; the sum is below 2^31, so it does not wrap, and read as a real number it is the sum of the
  indicators.
-/
import proofs.«405455_j32727650795653_2_alg».proof.Proof.RefRow
import proofs.«405455_j32727650795653_2_alg».proof.Proof.LibBitCount
import Idealize.ShloMosaic.PureOps.Ideal.Laws
import Idealize.ShloMosaic.Lib.Pipeline.Value
import Idealize.ShloMosaic.Lib.ValueIdx
import Idealize.ShloMosaic.Lib.StableHlo.Predicate

noncomputable section

open scoped BigOperators

namespace Cert.ReferenceIdeal.RefLoss

open Cert.ReferenceIdeal Cert.ReferenceIdeal.Gen Cert.ReferenceIdeal.Read Cert.ReferenceIdeal.RefRow Cert.LossSpec
open Idealize.ShloMosaic Idealize.ShloMosaic.ValueIdx

/-- Row `n` of the reference's loss vector is the specification's loss of row `n`. -/
theorem v12_lossN (x0 : FVec Ideal S4000000x9 .f32) (x1 : IVec S4000000 32) (x2 : FVec Ideal S9 .f32) (hT : InRange x1)
    (a : Fin 4000000) : val_main_v12 (F := Ideal) x0 x1 x2 (ix1 a) = lossN x0 x1 x2 a.val := by
  rw [v12_apply x0 x1 x2 hT a]; unfold lossN; rw [dif_pos a.isLt]

/-- The sum of the reference's loss vector over its rows is the specification's total loss. -/
theorem sum_v12 (x0 : FVec Ideal S4000000x9 .f32) (x1 : IVec S4000000 32) (x2 : FVec Ideal S9 .f32) (hT : InRange x1) :
    ∑ j : S4000000.Idx, val_main_v12 (F := Ideal) x0 x1 x2 j = totalLoss x0 x1 x2 := by
  unfold totalLoss
  exact BitCount.sum_idx1_range _ _ fun a => v12_lossN x0 x1 x2 hT a

/-- Entry `j` of the reference's mask: the comparison of row `j`'s loss with `ε`. -/
theorem v14_eq (x0 : FVec Ideal S4000000x9 .f32) (x1 : IVec S4000000 32) (x2 : FVec Ideal S9 .f32) (j : S4000000.Idx) :
    val_main_v14 (F := Ideal) x0 x1 x2 j = Ideal.cmp .ogt (val_main_v12 (F := Ideal) x0 x1 x2 j) eps := by
  rw [val_main_v14_apply, val_main_v13_apply, val_main_cst_apply, Ideal.cmpf_def]
  rfl

/-- The reference's integer count, read as a real number: the sum over the rows of the widened mask bits so read. The
    4,000,000 widened bits sum below 2^31, so the word sum does not wrap. -/
theorem v16_eq (x0 : FVec Ideal S4000000x9 .f32) (x1 : IVec S4000000 32) (x2 : FVec Ideal S9 .f32) (i : S_.Idx) :
    (((val_main_v16 (F := Ideal) x0 x1 x2 i).toInt : ℝ) : EReal)
      = ∑ j : S4000000.Idx, ((((val_main_v14 (F := Ideal) x0 x1 x2 j).setWidth 32).toInt : ℝ) : EReal) := by
  unfold val_main_v16 val_main_v15
  generalize val_main_v14 (F := Ideal) x0 x1 x2 = y
  rw [Host.reduce_eq_fold, Finset.filter_true_of_mem (fun j _ => funext fun a => a.elim0)]
  exact BitCount.coe_toInt_fold_bits Finset.univ y (by rw [Finset.card_univ, BitCount.card_idx1]; norm_num)

/-- The reference's count, as a float: the number of rows whose loss exceeds `ε`. -/
theorem v17_eq (x0 : FVec Ideal S4000000x9 .f32) (x1 : IVec S4000000 32) (x2 : FVec Ideal S9 .f32) (hT : InRange x1)
    (i : S_.Idx) : val_main_v17 (F := Ideal) x0 x1 x2 i = totalNz x0 x1 x2 := by
  rw [val_main_v17_apply]
  show (((val_main_v16 (F := Ideal) x0 x1 x2 i).toInt : ℝ) : EReal) = _
  rw [v16_eq]
  unfold totalNz
  refine BitCount.sum_idx1_range _ _ fun a => ?_
  rw [v14_eq, v12_lossN x0 x1 x2 hT a]
  rfl

/-- The reference's first result. -/
theorem v20_eq (x0 : FVec Ideal S4000000x9 .f32) (x1 : IVec S4000000 32) (x2 : FVec Ideal S9 .f32) (hT : InRange x1)
    (i : S_.Idx) : val_main_v20 (F := Ideal) x0 x1 x2 i = res0 x0 x1 x2 := by
  rw [val_main_v20_apply, Ideal.hostDivf_def, val_main_v18_apply, val_main_cst_2_apply, Ideal.ofBits_def,
    Ideal.ofBits_zero_f32, zero_add, sum_v12 x0 x1 x2 hT, val_main_v19_apply, Ideal.addf_def,
    v17_eq x0 x1 x2 hT, val_main_cst_3_apply, Ideal.ofBits_def]
  rfl

/-- The reference's second result. -/
theorem v22_eq (x0 : FVec Ideal S4000000x9 .f32) (x1 : IVec S4000000 32) (x2 : FVec Ideal S9 .f32) (hT : InRange x1)
    (i : S_.Idx) : val_main_v22 (F := Ideal) x0 x1 x2 i = res1 x0 x1 x2 := by
  rw [val_main_v22_apply, Ideal.hostDivf_def, val_main_v21_apply, val_main_cst_4_apply, val_main_cst_5_apply,
    Ideal.ofBits_def, Ideal.ofBits_def, Ideal.ofBits_zero_f32, zero_add, sum_v12 x0 x1 x2 hT]
  rfl

end Cert.ReferenceIdeal.RefLoss

end
-- ==== Proof.PointLoss.lean ====
/-
  One grid point of the kernel, over the extended reals: what the body computes from the point's three input blocks —
  the [9, 16000] block of logits (class on the first axis), the [1, 16000] block of labels and the [9, 1] column of
  class weights — read lane by lane, and the lane sums it writes out at a core's last point.

  The helper lemmas first read the layout operations of the body at an index given by coordinates (a column broadcast,
  the reductions over the class axis kept as a row, the lane sum kept as a one-element block), then the one-hot weights
  of a label word in the label range, so that the two one-hot sums pick the label's logit and weight.
-/
import proofs.«405455_j32727650795653_2_alg».proof.Proof.Gen.KernelIdeal.Skeleton
import proofs.«405455_j32727650795653_2_alg».proof.Proof.LossSpec
import Idealize.ShloMosaic.PureOps.Ideal.Laws
import Idealize.ShloMosaic.Lib.Pipeline.Value
import Idealize.ShloMosaic.Lib.ValueLayout

noncomputable section

open scoped BigOperators

namespace Cert.KernelIdeal.PointLoss

open Cert.KernelIdeal Cert.KernelIdeal.Gen Cert.LossSpec
open Idealize.ShloMosaic Idealize.ShloMosaic.ValueIdx

/-! ## Layout: the column forms of the casts, broadcasts and reductions -/

/-- A `[9, 1]` column broadcast to `[9, 16000]` reads, at `(k, j)`, the column at `k`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index over lane `j` with class `k` inserted on the reduced axis is `(k, j)`. -/
theorem lift0_eq (h : S9x16000.Reduces [0] S16000) (j : Fin 16000) (k : Fin 9) :
    h.lift (ix1 j) k = ix2 k j := by
  funext c
  match c with
  | ⟨0, _⟩ => exact Fin.ext rfl
  | ⟨1, _⟩ => exact Fin.ext rfl

/-- The f32 word `0xFF800000` is `-∞`. -/
theorem ofBits_negInf_f32 : Ideal.ofBits .f32 0xFF800000#32 = ⊥ := by simp [Ideal.ofBits, Ideal.ieee]

/-- The sum over the class axis, kept as a `[1, 16000]` row, at lane `j`. -/
theorem sumCol_apply (v : FVec Ideal S9x16000 .f32) (h : S9x16000.Reduces [0] S16000) (hφ : FKind.Formats .f32)
    (hacc : (0x00000000#32 : BitVec 32) = 0x00000000#32) (hc : S16000.ShapeCasts S1x16000) (j : Fin 16000) :
    shapeCast S1x16000 (multiReduction .add [0] S16000 v 0x00000000#32 h hφ hacc) hc (ix2 0 j)
      = ∑ k : Fin 9, v (ix2 k j) := by
  refine (shapeCast_a_1a_apply _ hc 0 j).trans ?_
  refine (Ideal.multiReduction_add_single v _ h hφ hacc (ix1 j)).trans ?_
  exact Finset.sum_congr rfl fun k _ => congrArg v (lift0_eq h j k)

/-- The maximum over the class axis, kept as a `[1, 16000]` row, at lane `j`: the column's row maximum. -/
theorem maxCol_apply (v : FVec Ideal S9x16000 .f32) (h : S9x16000.Reduces [0] S16000) (hφ : FKind.Formats .f32)
    (hacc : (0xFF800000#32 : BitVec 32) = 0xFF800000#32) (hc : S16000.ShapeCasts S1x16000) (j : Fin 16000) :
    shapeCast S1x16000 (multiReduction .maximumf [0] S16000 v 0xFF800000#32 h hφ hacc) hc (ix2 0 j)
      = rowMax (fun k => v (ix2 k j)) := by
  refine (shapeCast_a_1a_apply _ hc 0 j).trans ?_
  refine (Ideal.multiReduction_maximumf_single v _ h hφ hacc (ix1 j)).trans ?_
  unfold rowMax
  rw [Ideal.ofBits_def, ofBits_negInf_f32]
  exact congrArg (fun f => (Finset.univ : Finset (Fin 9)).fold max ⊥ f) (funext fun k => congrArg v (lift0_eq h j k))

/-! ## The one-hot weights -/

/-- The one-hot weight of class `k` for a label word `t` in the label range, read as a real number: `1` at the
    label's class and `0` elsewhere. -/
theorem onehot_eq (k : Fin 9) (t : BitVec 32) (ht : t.toNat < 9) :
    ((((IntOp.cmpi .eq (BitVec.ofNat 32 k.val) t).setWidth 32).toInt : ℝ) : EReal) = if k = cls t then 1 else 0 := by
  have hk : BitVec.ofNat 32 k.val = t ↔ k = cls t := by
    constructor
    · intro h
      have e : t.toNat = k.val := by
        rw [← h, BitVec.toNat_ofNat]; have := k.isLt; omega
      exact Fin.ext (show k.val = t.toNat % 9 by omega)
    · intro h
      have h1 : k.val = t.toNat % 9 := congrArg Fin.val h
      apply BitVec.eq_of_toNat_eq
      rw [BitVec.toNat_ofNat]; omega
  have h1 : ((BitVec.ofBool true).setWidth 32).toInt = 1 := by decide
  have h0 : ((BitVec.ofBool false).setWidth 32).toInt = 0 := by decide
  show ((((BitVec.ofBool (BitVec.ofNat 32 k.val == t)).setWidth 32).toInt : ℝ) : EReal) = _
  by_cases h : k = cls t
  · rw [if_pos h, hk.mpr h, beq_self_eq_true, h1]
    simp
  · have hne : BitVec.ofNat 32 k.val ≠ t := fun e => h (hk.mp e)
    rw [if_neg h, beq_eq_false_iff_ne.mpr hne, h0]
    simp

/-- The one-hot vector of the labels at `(k, j)`. -/
theorem onehotVec_apply (x1 : Vec Ideal S1x16000 .i32) (hi : S9x1.Iotas .tc 32 [0]) (hb1 : S9x1.Broadcasts S9x16000)
    (hb2 : S1x16000.Broadcasts S9x16000) (hc : S1x16000.ShapeCasts S1x16000) (hlt : 1 < 32) (k : Fin 9) (j : Fin 16000)
    (ht : (x1 (ix2 0 j)).toNat < 9) :
    (sitofp .f32 (extui 32 (cmpi .eq (broadcastTo S9x16000 (iota .tc S9x1 32 [0] hi) hb1)
        (broadcastTo S9x16000 (shapeCast S1x16000 x1 hc : IVec S1x16000 32) hb2)) hlt) : FVec Ideal S9x16000 .f32) (ix2 k j)
      = if k = cls (x1 (ix2 0 j)) then 1 else 0 := by
  have e1 : broadcastTo S9x16000 (iota .tc S9x1 32 [0] hi) hb1 (ix2 k j) = BitVec.ofNat 32 k.val :=
    (broadcastTo_a1_ab_apply _ hb1 k j).trans (iota_single_apply .tc S9x1 32 0 hi (ix2 k 0))
  have e2 : broadcastTo S9x16000 (shapeCast S1x16000 x1 hc : IVec S1x16000 32) hb2 (ix2 k j) = x1 (ix2 0 j) :=
    (broadcastTo_1b_ab_apply _ hb2 k j).trans (congrFun (shapeCast_self x1 hc) _)
  show ((((IntOp.cmpi .eq (broadcastTo S9x16000 (iota .tc S9x1 32 [0] hi) hb1 (ix2 k j))
      (broadcastTo S9x16000 (shapeCast S1x16000 x1 hc : IVec S1x16000 32) hb2 (ix2 k j))).setWidth 32).toInt : ℝ) : EReal) = _
  rw [e1, e2]
  exact onehot_eq k _ ht

/-- A sum against one-hot weights on the right picks the one term. -/
theorem sum_mul_onehot (f : Fin 9 → EReal) (c : Fin 9) :
    ∑ k : Fin 9, f k * (if k = c then (1 : EReal) else 0) = f c := by
  rw [Finset.sum_eq_single c]
  · rw [if_pos rfl, mul_one]
  · intro b _ hb; rw [if_neg hb, mul_zero]
  · intro h; exact absurd (Finset.mem_univ c) h

/-- A sum against one-hot weights on the left picks the one term. -/
theorem sum_onehot_mul (f : Fin 9 → EReal) (c : Fin 9) :
    ∑ k : Fin 9, (if k = c then (1 : EReal) else 0) * f k = f c := by
  rw [Finset.sum_eq_single c]
  · rw [if_pos rfl, one_mul]
  · intro b _ hb; rw [if_neg hb, zero_mul]
  · intro h; exact absurd (Finset.mem_univ c) h

/-! ## The lane sum of a `[1, 16000]` row into `[1, 1, 1]` -/

/-- The source index over the one reduced index with lane `k` inserted on the reduced axis is `(i, k)`. -/
theorem lift1_eq (h : S1x16000.Reduces [1] S1) (i : Fin 1) (k : Fin 16000) :
    h.lift (ix1 i) k = ix2 i k := by
  funext c
  match c with
  | ⟨0, _⟩ => exact Fin.ext rfl
  | ⟨1, _⟩ => exact Fin.ext rfl

/-- The sum over the lanes of a `[1, 16000]` row, reshaped to `[1, 1, 1]`, at its one index. -/
theorem sumLanes_apply (v : FVec Ideal S1x16000 .f32) (h : S1x16000.Reduces [1] S1) (hφ : FKind.Formats .f32)
    (hacc : (0x00000000#32 : BitVec 32) = 0x00000000#32) (hc1 : S1.ShapeCasts S1x1) (hc2 : S1x1.ShapeCasts S1x1x1)
    (z : S1x1x1.Idx) :
    shapeCast S1x1x1 (shapeCast S1x1 (multiReduction .add [1] S1 v 0x00000000#32 h hφ hacc) hc1) hc2 z
      = ∑ j : Fin 16000, v (ix2 0 j) := by
  obtain ⟨a, b, c, rfl⟩ : ∃ (a b c : Fin 1), z = ix3 a b c := ⟨_, _, _, eq_ix3 z⟩
  obtain rfl : c = 0 := Subsingleton.elim _ _
  refine (shapeCast_ab_1ab_apply _ hc2 a b 0).trans ?_
  refine (shapeCast_a_1a_apply _ hc1 b 0).trans ?_
  refine (Ideal.multiReduction_add_single v _ h hφ hacc (ix1 0)).trans ?_
  exact Finset.sum_congr rfl fun k _ => congrArg v (lift1_eq h 0 k)

/-! ## The nine payloads -/

/-- Lane `j` of the point's loss vector is the row loss of the block's column `j`: the one-hot sums pick the label's
    logit and weight (for a label in the label range), the shift and the log-sum-exp are the row's. -/
theorem pay7_apply (x0 : Vec Ideal S9x16000 .f32) (x1 : Vec Ideal S1x16000 .i32) (x2 : Vec Ideal S9x1 .f32) (j : Fin 16000)
    (ht : (x1 (ix2 0 j)).toNat < 9) :
    k0_pay7 (F := Ideal) x0 x1 x2 (ix2 0 j)
      = rowLoss (fun k => x0 (ix2 k j)) (fun k => x2 (ix2 k 0)) (cls (x1 (ix2 0 j))) := by
  -- the logits block through its identity reshape, at `(k, j)`
  have hx : ∀ k : Fin 9, shapeCast S9x16000 x0 shapeCasts_S9x16000_S9x16000 (ix2 k j) = x0 (ix2 k j) :=
    fun k => congrFun (shapeCast_self x0 _) _
  -- the shifted maximum row at lane `j`
  have hmax := (maxCol_apply (shapeCast S9x16000 x0 shapeCasts_S9x16000_S9x16000) reduces_S9x16000_S16000 (Or.inl rfl) rfl
    shapeCasts_S16000_S1x16000 j).trans (congrArg rowMax (funext hx))
  unfold k0_pay7
  refine (mulf_apply _ _ _).trans ?_
  unfold rowLoss
  refine congrArg₂ (fun a b : EReal => a * b) ?_ ?_
  · -- the weight: `0 - ∑_k oh_k · w_k = -w_t`
    refine (subf_apply _ _ _).trans ?_
    refine (congrArg₂ (fun a b : EReal => a - b) Ideal.ofBits_zero_f32
      (?_ : _ = x2 (ix2 (cls (x1 (ix2 0 j))) 0))).trans (zero_sub _)
    refine (sumCol_apply _ _ _ _ _ j).trans ?_
    refine (Finset.sum_congr rfl fun k _ => (mulf_apply _ _ _).trans
      (congrArg₂ (fun a b : EReal => a * b) (onehotVec_apply x1 _ _ _ _ _ k j ht)
        ((broadcastTo_a1_ab_apply _ _ k j).trans (congrFun (shapeCast_self x2 _) _)))).trans ?_
    exact sum_onehot_mul (fun k => x2 (ix2 k 0)) _
  · refine (subf_apply _ _ _).trans ?_
    refine congrArg₂ (fun a b : EReal => a - b) ?_ ?_
    · refine (subf_apply _ _ _).trans ?_
      refine congrArg₂ (fun a b : EReal => a - b) ?_ hmax
      -- the label's logit: `∑_k x_k · oh_k = x_t`
      refine (sumCol_apply _ _ _ _ _ j).trans ?_
      refine (Finset.sum_congr rfl fun k _ => (mulf_apply _ _ _).trans
        (congrArg₂ (fun a b : EReal => a * b) (hx k) (onehotVec_apply x1 _ _ _ _ _ k j ht))).trans ?_
      exact sum_mul_onehot (fun k => x0 (ix2 k j)) _
    · -- the log-sum-exp of the shifted column
      show Ideal.log _ = _
      unfold rowLse
      refine congrArg Ideal.log ?_
      refine (sumCol_apply _ _ _ _ _ j).trans ?_
      refine Finset.sum_congr rfl fun k _ => ?_
      show Ideal.exp _ = _
      refine congrArg Ideal.exp ?_
      refine (subf_apply _ _ _).trans ?_
      exact congrArg₂ (fun a b : EReal => a - b) (hx k) ((broadcastTo_1b_ab_apply _ _ k j).trans hmax)

/-- Lane `j` of the point's indicator vector: `1` where the lane's loss exceeds `ε`, else `0`. -/
theorem pay8_apply (x0 : Vec Ideal S9x16000 .f32) (x1 : Vec Ideal S1x16000 .i32) (x2 : Vec Ideal S9x1 .f32) (j : Fin 16000) :
    k0_pay8 (F := Ideal) x0 x1 x2 (ix2 0 j) = nzOf (k0_pay7 (F := Ideal) x0 x1 x2 (ix2 0 j)) := by
  rfl

/-- The running loss sum after the point: what it held plus the point's loss vector. -/
theorem pay9_apply (x0 : Vec Ideal S9x16000 .f32) (x1 : Vec Ideal S1x16000 .i32) (x2 : Vec Ideal S9x1 .f32)
    (acc : Vec Ideal S1x16000 .f32) (y : S1x16000.Idx) :
    k0_pay9 (F := Ideal) x0 x1 x2 acc y = acc y + k0_pay7 (F := Ideal) x0 x1 x2 y := by
  rfl

/-- Storing the running sum back changes nothing. -/
theorem pay1_apply (v : FVec Ideal S1x16000 .f32) (y : S1x16000.Idx) : k0_pay1 (F := Ideal) v y = v y := by
  exact congrFun (shapeCast_self v _) y

/-- The running count after the point: what it held plus the point's indicator vector. -/
theorem pay2_apply (nz : FVec Ideal S1x16000 .f32) (acc : Vec Ideal S1x16000 .f32) (y : S1x16000.Idx) :
    k0_pay2 (F := Ideal) nz acc y = acc y + nz y := by
  exact congrFun (shapeCast_self (addf acc nz) _) y

/-- The reset of the running loss sum at a core's first point is zero on every lane. -/
theorem pay5_apply (y : S1x16000.Idx) : (k0_pay5 (F := Ideal)) y = 0 := by
  unfold k0_pay5
  refine (congrFun (shapeCast_self _ _) y).trans ?_
  exact Ideal.ofBits_zero_f32

/-- The reset of the running count at a core's first point is zero on every lane. -/
theorem pay6_apply (y : S1x16000.Idx) : (k0_pay6 (F := Ideal)) y = 0 := by
  unfold k0_pay6
  refine (congrFun (shapeCast_self _ _) y).trans ?_
  exact Ideal.ofBits_zero_f32

/-- A core's loss output: the sum of the running loss sum over its 16000 lanes. -/
theorem pay3_apply (v : Vec Ideal S1x16000 .f32) (z : S1x1x1.Idx) :
    k0_pay3 (F := Ideal) v z = ∑ j : Fin 16000, v (ix2 0 j) := by
  exact sumLanes_apply v _ _ _ _ _ z

/-- A core's count output: the sum of the running count over its 16000 lanes. -/
theorem pay4_apply (v : Vec Ideal S1x16000 .f32) (z : S1x1x1.Idx) :
    k0_pay4 (F := Ideal) v z = ∑ j : Fin 16000, v (ix2 0 j) := by
  exact sumLanes_apply v _ _ _ _ _ z

end Cert.KernelIdeal.PointLoss

end
-- ==== Proof.BlockReads.lean ====
/-
  The three input blocks a grid point of the kernel is handed, read back at the argument arrays. Before the region the
  host transposes the logits to [9, 4000000] and reshapes the labels to [1, 4000000] and the weights to [9, 1]; point `t`
  of the 2 × 125 grid is handed columns `16000·t … 16000·t + 15999` of the first two and the whole weight column.
  So lane `j` of point `t` is row `16000·t + j` of the arguments.
-/
import proofs.«405455_j32727650795653_2_alg».proof.Proof.Gen.KernelIdeal.Frame
import Idealize.ShloMosaic.Lib.Pipeline.Value
import Idealize.ShloMosaic.Lib.ValueIdx
import Idealize.ShloMosaic.Lib.StableHlo.Run

noncomputable section

open scoped BigOperators

namespace Cert.KernelIdeal.BlockReads

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-! ## The index maps over the grid

Point `t` of the 250 points has coordinates `(t / 125, t % 125)`, and the logits' and labels' windows take block
`(0, (t / 125) · 125 + t % 125) = (0, t)`; the weights' window always takes block `(0, 0)`. -/

theorem idx0 : ∀ t : Fin cfg0.N, win0_0.index t (0 : Fin 2) = 0 ∧ win0_0.index t (1 : Fin 2) = t.val :=
  (by decide +kernel : ∀ t : Fin grid0.N, _)

theorem idx1 : ∀ t : Fin cfg0.N, win0_1.index t (0 : Fin 2) = 0 ∧ win0_1.index t (1 : Fin 2) = t.val :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

/-! ## The windows' arrays when the region is entered

Each is what one host operation made of an argument array: the transposed logits, the labels as a row, the weights as
a column. -/

theorem V_main_v0 (c : Dev nD) :
    (V m c main_v0 : S9x4000000.Idx → Elt Ideal .f32)
      = transpose S9x4000000 [1, 0] (m ((c : Thread nD τ).loc main_arg0)) transposes_S4000000x9_S9x4000000_1_0 := by
  show StableHlo.after hostOps0 (fun b => m (c, b)) (Proc.devRef .tc main_v0) = _
  after_results

theorem V_main_v1 (c : Dev nD) :
    (V m c main_v1 : S1x4000000.Idx → Elt Ideal .i32)
      = shapeCast S1x4000000 (m ((c : Thread nD τ).loc main_arg1)) shapeCasts_S4000000_S1x4000000 := by
  show StableHlo.after hostOps0 (fun b => m (c, b)) (Proc.devRef .tc main_v1) = _
  after_results
  rfl

theorem V_main_v2 (c : Dev nD) :
    (V m c main_v2 : S9x1.Idx → Elt Ideal .f32)
      = shapeCast S9x1 (m ((c : Thread nD τ).loc main_arg2)) shapeCasts_S9_S9x1 := by
  show StableHlo.after hostOps0 (fun b => m (c, b)) (Proc.devRef .tc main_v2) = _
  after_results
  rfl

/-! ## The blocks -/

/-- The point's block of logits, class on the first axis. -/
abbrev lgBlk (c : Dev nD) (t : Fin cfg0.N) : Vec Ideal S9x16000 .f32 := iblk m c 0 t
/-- The point's block of labels. -/
abbrev tgBlk (c : Dev nD) (t : Fin cfg0.N) : Vec Ideal S1x16000 .i32 := iblk m c 1 t
/-- The column of class weights (the same at every point). -/
abbrev cwBlk (c : Dev nD) (t : Fin cfg0.N) : Vec Ideal S9x1 .f32 := iblk m c 2 t

/-- Lane `j` of point `t` is a row of the arrays. -/
theorem row_lt (t : Fin cfg0.N) (j : Fin 16000) : t.val * 16000 + j.val < 4000000 := by
  have h : t.val < 250 := lt_of_lt_of_eq t.isLt N_0
  have := j.isLt
  omega

theorem lgBlk_apply (c : Dev nD) (t : Fin cfg0.N) (k : Fin 9) (j : Fin 16000) :
    lgBlk m c t (ix2 k j) = m ((c : Thread nD τ).loc main_arg0) (ix2 ⟨t.val * 16000 + j.val, row_lt t j⟩ k) := by
  -- element (k, j) of block (0, t) is element (k, 16000·t + j) of the transposed array: element (16000·t + j, k) of the logits
  show V m c main_v0 (((cfg0.win 0).blk t).view.emb (ix2 k j)) = _
  rw [V_main_v0]
  obtain ⟨e0, e1⟩ := idx0 t
  refine transpose_apply _ _ _ _ _ (fun b => ?_)
  match b with
  | ⟨0, _⟩ =>
    show k.val = win0_0.index t (0 : Fin 2) * 9 + 1 * k.val
    omega
  | ⟨1, _⟩ =>
    show t.val * 16000 + j.val = win0_0.index t (1 : Fin 2) * 16000 + 1 * j.val
    omega

theorem tgBlk_apply (c : Dev nD) (t : Fin cfg0.N) (j : Fin 16000) :
    tgBlk m c t (ix2 0 j) = m ((c : Thread nD τ).loc main_arg1) (ix1 ⟨t.val * 16000 + j.val, row_lt t j⟩) := by
  -- element (0, j) of block (0, t) is element (0, 16000·t + j) of the row, at the same row-major position as label 16000·t + j
  show V m c main_v1 (((cfg0.win 1).blk t).view.emb (ix2 0 j)) = _
  rw [V_main_v1]
  obtain ⟨e0, e1⟩ := idx1 t
  refine shapeCast_apply (s := S4000000) (t := S1x4000000) _ _ _ _ ?_
  rw [Shape.rowMajor_val_two, Shape.rowMajor_val_one]
  show t.val * 16000 + j.val
    = (win0_1.index t (0 : Fin 2) * 1 + 1 * 0) * 4000000 + (win0_1.index t (1 : Fin 2) * 16000 + 1 * j.val)
  omega

theorem cwBlk_apply (c : Dev nD) (t : Fin cfg0.N) (k : Fin 9) :
    cwBlk m c t (ix2 k 0) = m ((c : Thread nD τ).loc main_arg2) (ix1 k) := by
  -- element (k, 0) of block (0, 0) is element (k, 0) of the column, at the same row-major position as weight k
  show V m c main_v2 (((cfg0.win 2).blk t).view.emb (ix2 k 0)) = _
  rw [V_main_v2]
  obtain ⟨e0, e1⟩ := idx2 t
  refine shapeCast_apply (s := S9) (t := S9x1) _ _ _ _ ?_
  rw [Shape.rowMajor_val_two, Shape.rowMajor_val_one]
  show k.val
    = (win0_2.index t (0 : Fin 2) * 9 + 1 * k.val) * 1 + (win0_2.index t (1 : Fin 2) * 1 + 1 * 0)
  omega

end Cert.KernelIdeal.BlockReads

end
-- ==== Proof.Accum.lean ====
/-
  What the kernel's two running vectors hold after each grid point, and what a core's last point writes out.
  The 250 points run in order; point `n` belongs to core `n / 125` and is its step `n % 125`. At a core's first step
  the running loss sum and the running count are reset to zero and the point's vectors added; at every later step the
  point's vectors are added to what the step before left. So after point `n` the running loss sum is the sum of the
  loss vectors of points `125·(n / 125) … n`, lane by lane, and likewise the count. At a core's last step (124) the
  two outputs are the lane sums of the two running vectors.
-/
import proofs.«405455_j32727650795653_2_alg».proof.Proof.Gen.KernelIdeal.Frame
import proofs.«405455_j32727650795653_2_alg».proof.Proof.PointLoss
import proofs.«405455_j32727650795653_2_alg».proof.Proof.BlockReads

noncomputable section

open scoped BigOperators

namespace Cert.KernelIdeal.Accum

open Cert.KernelIdeal Cert.KernelIdeal.Gen Cert.KernelIdeal.BlockReads Cert.KernelIdeal.PointLoss
open Idealize.ShloMosaic Idealize.ShloMosaic.TcCoe Idealize.ShloMosaic.ValueIdx Idealize.SL.Sem
open Idealize.ShloMosaic.Tactic

/-! ## What one step leaves, as a function of the point's blocks and of what the step before left

Each step's stores into the two running vectors (and, at a core's last step, into the two outputs) cover them whole, so
what the step leaves is the payload of its last store, whose loads read the whole buffers. Stated for any float type
and any buffers. -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A core's first step: the running loss sum is reset to the zero vector, read back, and the point's loss vector added. -/
theorem sA0 (c : Dev nD) (i : grid0.Coords) (arg2 : Memref sig .tc .vmem S9x16000 .f32) (harg2 : arg2.IsWhole) (arg3 : Memref sig .tc .vmem S1x16000 .i32) (harg3 : arg3.IsWhole) (arg4 : Memref sig .tc .vmem S9x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x16000 .f32) (harg7 : arg7.IsWhole) (arg8 : Memref sig .tc .vmem S1x16000 .f32) (harg8 : arg8.IsWhole) (hc0 : cond0_0 i) (hc1 : ¬cond0_1 i)
    (x0 : Vec F S9x16000 .f32) (x1 : Vec F S1x16000 .i32) (x2 : Vec F S9x1 .f32) :
    sout0_A_0 c i arg2 harg2 arg3 harg3 arg4 harg4 arg5 harg5 arg6 harg6 arg7 harg7 arg8 harg8 hc0 hc1 x0 x1 x2 = k0_pay1 (k0_pay9 x0 x1 x2 k0_pay5) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x16000) hz2]
  simp only [View.readAt_eq_ld, harg2.read_unread, harg3.read_unread, harg4.read_unread, harg7.read_unread, harg8.read_unread, View.ld_unit_zero (S := S9x16000) hz2, View.ld_unit_zero (S := S1x16000) hz2, View.ld_unit_zero (S := S9x1) hz2, View.readCov_unit_zero (S := S1x16000) _ hz2]

/-- A core's first step: the running count is reset to the zero vector, read back, and the point's indicator vector added. -/
theorem sA1 (c : Dev nD) (i : grid0.Coords) (arg2 : Memref sig .tc .vmem S9x16000 .f32) (harg2 : arg2.IsWhole) (arg3 : Memref sig .tc .vmem S1x16000 .i32) (harg3 : arg3.IsWhole) (arg4 : Memref sig .tc .vmem S9x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x16000 .f32) (harg7 : arg7.IsWhole) (arg8 : Memref sig .tc .vmem S1x16000 .f32) (harg8 : arg8.IsWhole) (hc0 : cond0_0 i) (hc1 : ¬cond0_1 i)
    (x0 : Vec F S9x16000 .f32) (x1 : Vec F S1x16000 .i32) (x2 : Vec F S9x1 .f32) :
    sout0_A_1 c i arg2 harg2 arg3 harg3 arg4 harg4 arg5 harg5 arg6 harg6 arg7 harg7 arg8 harg8 hc0 hc1 x0 x1 x2 = k0_pay2 (k0_pay8 x0 x1 x2) k0_pay6 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x16000) hz2]
  simp only [View.readAt_eq_ld, harg2.read_unread, harg3.read_unread, harg4.read_unread, harg7.read_unread, harg8.read_unread, View.ld_unit_zero (S := S9x16000) hz2, View.ld_unit_zero (S := S1x16000) hz2, View.ld_unit_zero (S := S9x1) hz2, View.readCov_unit_zero (S := S1x16000) _ hz2]

/-- A middle step: the point's loss vector is added to the running loss sum `xs0` the step before left. -/
theorem sB0 (c : Dev nD) (i : grid0.Coords) (arg2 : Memref sig .tc .vmem S9x16000 .f32) (harg2 : arg2.IsWhole) (arg3 : Memref sig .tc .vmem S1x16000 .i32) (harg3 : arg3.IsWhole) (arg4 : Memref sig .tc .vmem S9x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x16000 .f32) (harg7 : arg7.IsWhole) (arg8 : Memref sig .tc .vmem S1x16000 .f32) (harg8 : arg8.IsWhole) (hc0 : ¬cond0_0 i) (hc1 : ¬cond0_1 i)
    (x0 : Vec F S9x16000 .f32) (x1 : Vec F S1x16000 .i32) (x2 : Vec F S9x1 .f32) (xs0 : Vec F S1x16000 .f32) (xs1 : Vec F S1x16000 .f32) :
    sout0_B_0 c i arg2 harg2 arg3 harg3 arg4 harg4 arg5 harg5 arg6 harg6 arg7 harg7 arg8 harg8 hc0 hc1 x0 x1 x2 xs0 xs1 = k0_pay1 (k0_pay9 x0 x1 x2 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero (S := S1x16000) hz2]
  simp only [View.readAt_eq_ld, harg2.read_unread, harg3.read_unread, harg4.read_unread, harg7.read_unread, harg8.read_unread, View.ld_unit_zero (S := S9x16000) hz2, View.ld_unit_zero (S := S1x16000) hz2, View.ld_unit_zero (S := S9x1) hz2, View.readCov_unit_zero (S := S1x16000) _ hz2]

/-- A middle step: the point's indicator vector is added to the running count `xs1` the step before left. -/
theorem sB1 (c : Dev nD) (i : grid0.Coords) (arg2 : Memref sig .tc .vmem S9x16000 .f32) (harg2 : arg2.IsWhole) (arg3 : Memref sig .tc .vmem S1x16000 .i32) (harg3 : arg3.IsWhole) (arg4 : Memref sig .tc .vmem S9x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x16000 .f32) (harg7 : arg7.IsWhole) (arg8 : Memref sig .tc .vmem S1x16000 .f32) (harg8 : arg8.IsWhole) (hc0 : ¬cond0_0 i) (hc1 : ¬cond0_1 i)
    (x0 : Vec F S9x16000 .f32) (x1 : Vec F S1x16000 .i32) (x2 : Vec F S9x1 .f32) (xs0 : Vec F S1x16000 .f32) (xs1 : Vec F S1x16000 .f32) :
    sout0_B_1 c i arg2 harg2 arg3 harg3 arg4 harg4 arg5 harg5 arg6 harg6 arg7 harg7 arg8 harg8 hc0 hc1 x0 x1 x2 xs0 xs1 = k0_pay2 (k0_pay8 x0 x1 x2) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero (S := S1x16000) hz2]
  simp only [View.readAt_eq_ld, harg2.read_unread, harg3.read_unread, harg4.read_unread, harg7.read_unread, harg8.read_unread, View.ld_unit_zero (S := S9x16000) hz2, View.ld_unit_zero (S := S1x16000) hz2, View.ld_unit_zero (S := S9x1) hz2, View.readCov_unit_zero (S := S1x16000) _ hz2]

/-- A core's last step updates the running loss sum as a middle step does. -/
theorem sC0 (c : Dev nD) (i : grid0.Coords) (arg2 : Memref sig .tc .vmem S9x16000 .f32) (harg2 : arg2.IsWhole) (arg3 : Memref sig .tc .vmem S1x16000 .i32) (harg3 : arg3.IsWhole) (arg4 : Memref sig .tc .vmem S9x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x16000 .f32) (harg7 : arg7.IsWhole) (arg8 : Memref sig .tc .vmem S1x16000 .f32) (harg8 : arg8.IsWhole) (hc0 : ¬cond0_0 i) (hc1 : cond0_1 i)
    (x0 : Vec F S9x16000 .f32) (x1 : Vec F S1x16000 .i32) (x2 : Vec F S9x1 .f32) (xs0 : Vec F S1x16000 .f32) (xs1 : Vec F S1x16000 .f32) :
    sout0_C_0 c i arg2 harg2 arg3 harg3 arg4 harg4 arg5 harg5 arg6 harg6 arg7 harg7 arg8 harg8 hc0 hc1 x0 x1 x2 xs0 xs1 = k0_pay1 (k0_pay9 x0 x1 x2 xs0) := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero (S := S1x16000) hz2]
  simp only [View.readAt_eq_ld, harg2.read_unread, harg3.read_unread, harg4.read_unread, harg7.read_unread, harg8.read_unread, View.ld_unit_zero (S := S9x16000) hz2, View.ld_unit_zero (S := S1x16000) hz2, View.ld_unit_zero (S := S9x1) hz2, View.readCov_unit_zero (S := S1x16000) _ hz2]

/-- A core's last step updates the running count as a middle step does. -/
theorem sC1 (c : Dev nD) (i : grid0.Coords) (arg2 : Memref sig .tc .vmem S9x16000 .f32) (harg2 : arg2.IsWhole) (arg3 : Memref sig .tc .vmem S1x16000 .i32) (harg3 : arg3.IsWhole) (arg4 : Memref sig .tc .vmem S9x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x16000 .f32) (harg7 : arg7.IsWhole) (arg8 : Memref sig .tc .vmem S1x16000 .f32) (harg8 : arg8.IsWhole) (hc0 : ¬cond0_0 i) (hc1 : cond0_1 i)
    (x0 : Vec F S9x16000 .f32) (x1 : Vec F S1x16000 .i32) (x2 : Vec F S9x1 .f32) (xs0 : Vec F S1x16000 .f32) (xs1 : Vec F S1x16000 .f32) :
    sout0_C_1 c i arg2 harg2 arg3 harg3 arg4 harg4 arg5 harg5 arg6 harg6 arg7 harg7 arg8 harg8 hc0 hc1 x0 x1 x2 xs0 xs1 = k0_pay2 (k0_pay8 x0 x1 x2) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero (S := S1x16000) hz2]
  simp only [View.readAt_eq_ld, harg2.read_unread, harg3.read_unread, harg4.read_unread, harg7.read_unread, harg8.read_unread, View.ld_unit_zero (S := S9x16000) hz2, View.ld_unit_zero (S := S1x16000) hz2, View.ld_unit_zero (S := S9x1) hz2, View.readCov_unit_zero (S := S1x16000) _ hz2]

/-- A core's last step writes out the lane reduction of the running loss sum it has just updated. -/
theorem oC3 (c : Dev nD) (i : grid0.Coords) (arg2 : Memref sig .tc .vmem S9x16000 .f32) (harg2 : arg2.IsWhole) (arg3 : Memref sig .tc .vmem S1x16000 .i32) (harg3 : arg3.IsWhole) (arg4 : Memref sig .tc .vmem S9x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x16000 .f32) (harg7 : arg7.IsWhole) (arg8 : Memref sig .tc .vmem S1x16000 .f32) (harg8 : arg8.IsWhole) (hc0 : ¬cond0_0 i) (hc1 : cond0_1 i)
    (x0 : Vec F S9x16000 .f32) (x1 : Vec F S1x16000 .i32) (x2 : Vec F S9x1 .f32) (xs0 : Vec F S1x16000 .f32) (xs1 : Vec F S1x16000 .f32) :
    out0_C_3 c i arg2 harg2 arg3 harg3 arg4 harg4 arg5 harg5 arg6 harg6 arg7 harg7 arg8 harg8 hc0 hc1 x0 x1 x2 xs0 xs1 = k0_pay3 (k0_pay1 (k0_pay9 x0 x1 x2 xs0)) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero (S := S1x1x1) hz3]
  simp only [View.readAt_eq_ld, harg2.read_unread, harg3.read_unread, harg4.read_unread, harg7.read_unread, harg8.read_unread, View.ld_unit_zero (S := S9x16000) hz2, View.ld_unit_zero (S := S1x16000) hz2, View.ld_unit_zero (S := S9x1) hz2, View.readCov_unit_zero (S := S1x16000) _ hz2]

/-- A core's last step writes out the lane reduction of the running count it has just updated. -/
theorem oC4 (c : Dev nD) (i : grid0.Coords) (arg2 : Memref sig .tc .vmem S9x16000 .f32) (harg2 : arg2.IsWhole) (arg3 : Memref sig .tc .vmem S1x16000 .i32) (harg3 : arg3.IsWhole) (arg4 : Memref sig .tc .vmem S9x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x16000 .f32) (harg7 : arg7.IsWhole) (arg8 : Memref sig .tc .vmem S1x16000 .f32) (harg8 : arg8.IsWhole) (hc0 : ¬cond0_0 i) (hc1 : cond0_1 i)
    (x0 : Vec F S9x16000 .f32) (x1 : Vec F S1x16000 .i32) (x2 : Vec F S9x1 .f32) (xs0 : Vec F S1x16000 .f32) (xs1 : Vec F S1x16000 .f32) :
    out0_C_4 c i arg2 harg2 arg3 harg3 arg4 harg4 arg5 harg5 arg6 harg6 arg7 harg7 arg8 harg8 hc0 hc1 x0 x1 x2 xs0 xs1 = k0_pay4 (k0_pay2 (k0_pay8 x0 x1 x2) xs1) := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero (S := S1x1x1) hz3]
  simp only [View.readAt_eq_ld, harg2.read_unread, harg3.read_unread, harg4.read_unread, harg7.read_unread, harg8.read_unread, View.ld_unit_zero (S := S9x16000) hz2, View.ld_unit_zero (S := S1x16000) hz2, View.ld_unit_zero (S := S9x1) hz2, View.readCov_unit_zero (S := S1x16000) _ hz2]

end Pieces

/-! ## The running vectors after each point -/

variable (m : (ℓ : Loc nD τ sig) → Buf (Elt Ideal) ℓ)

/-- Point `n`'s loss vector (zero past the grid). -/
def ptLoss (c : Dev nD) (n : ℕ) : S1x16000.Idx → EReal :=
  if h : n < cfg0.N then k0_pay7 (F := Ideal) (lgBlk m c ⟨n, h⟩) (tgBlk m c ⟨n, h⟩) (cwBlk m c ⟨n, h⟩) else fun _ => 0

/-- Point `n`'s indicator vector (zero past the grid). -/
def ptNz (c : Dev nD) (n : ℕ) : S1x16000.Idx → EReal :=
  if h : n < cfg0.N then k0_pay8 (F := Ideal) (lgBlk m c ⟨n, h⟩) (tgBlk m c ⟨n, h⟩) (cwBlk m c ⟨n, h⟩) else fun _ => 0

/-- At a grid point the loss vector is the body's, of the point's three blocks. -/
theorem ptLoss_val (c : Dev nD) (t : Fin cfg0.N) :
    ptLoss m c t.val = k0_pay7 (F := Ideal) (lgBlk m c t) (tgBlk m c t) (cwBlk m c t) := by
  unfold ptLoss; rw [dif_pos t.isLt]

/-- At a grid point the indicator vector is the body's, of the point's three blocks. -/
theorem ptNz_val (c : Dev nD) (t : Fin cfg0.N) :
    ptNz m c t.val = k0_pay8 (F := Ideal) (lgBlk m c t) (tgBlk m c t) (cwBlk m c t) := by
  unfold ptNz; rw [dif_pos t.isLt]

/-- The running loss sum, by induction on the point: a core's first step resets and adds, every other step adds to
    what the step before left. -/
theorem accSum_aux (c : Dev nD) (n : ℕ) : ∀ (t : Fin cfg0.N), t.val = n → ∀ (y : S1x16000.Idx),
    (outsAt0 m c t.val t.isLt).2.2.1 y
      = ∑ s ∈ Finset.range (t.val % 125 + 1), ptLoss m c (125 * (t.val / 125) + s) y := by
  induction n using Nat.strong_induction_on with
  | _ n ih =>
    intro t ht y
    have hN : t.val < 250 := lt_of_lt_of_eq t.isLt (show cfg0.N = 250 from N_0)
    by_cases h0 : t.val % 125 = 0
    · have h1 : ¬t.val % 125 = 124 := by omega
      rw [outsAt0_A m c t h0 h1]; dsimp only
      refine (congrFun (sA0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (lgBlk m c t) (tgBlk m c t) (cwBlk m c t)) y).trans ?_
      rw [pay1_apply, pay9_apply, pay5_apply, zero_add, h0, Finset.sum_range_one,
        show 125 * (t.val / 125) + 0 = t.val from by omega, ptLoss_val]
    · have hp : t.val - 1 < n := by omega
      have hprev := ih (t.val - 1) hp ⟨t.val - 1, Nat.lt_of_le_of_lt (Nat.sub_le _ _) t.isLt⟩ rfl y
      dsimp only at hprev
      rw [show (t.val - 1) % 125 + 1 = t.val % 125 from by omega,
        show (t.val - 1) / 125 = t.val / 125 from by omega] at hprev
      by_cases h1 : t.val % 125 = 124
      · rw [outsAt0_C m c t h0 h1]; dsimp only
        refine (congrFun (sC0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (lgBlk m c t) (tgBlk m c t) (cwBlk m c t) (outsAt0 m c (t.val - 1) (Nat.lt_of_le_of_lt (Nat.sub_le _ _) t.isLt)).2.2.1 (outsAt0 m c (t.val - 1) (Nat.lt_of_le_of_lt (Nat.sub_le _ _) t.isLt)).2.2.2) y).trans ?_
        rw [pay1_apply, pay9_apply, hprev, Finset.sum_range_succ, Nat.div_add_mod, ptLoss_val]
      · rw [outsAt0_B m c t h0 h1]; dsimp only
        refine (congrFun (sB0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (lgBlk m c t) (tgBlk m c t) (cwBlk m c t) (outsAt0 m c (t.val - 1) (Nat.lt_of_le_of_lt (Nat.sub_le _ _) t.isLt)).2.2.1 (outsAt0 m c (t.val - 1) (Nat.lt_of_le_of_lt (Nat.sub_le _ _) t.isLt)).2.2.2) y).trans ?_
        rw [pay1_apply, pay9_apply, hprev, Finset.sum_range_succ, Nat.div_add_mod, ptLoss_val]

/-- The running count, by the same induction. -/
theorem accCnt_aux (c : Dev nD) (n : ℕ) : ∀ (t : Fin cfg0.N), t.val = n → ∀ (y : S1x16000.Idx),
    (outsAt0 m c t.val t.isLt).2.2.2 y
      = ∑ s ∈ Finset.range (t.val % 125 + 1), ptNz m c (125 * (t.val / 125) + s) y := by
  induction n using Nat.strong_induction_on with
  | _ n ih =>
    intro t ht y
    have hN : t.val < 250 := lt_of_lt_of_eq t.isLt (show cfg0.N = 250 from N_0)
    by_cases h0 : t.val % 125 = 0
    · have h1 : ¬t.val % 125 = 124 := by omega
      rw [outsAt0_A m c t h0 h1]; dsimp only
      refine (congrFun (sA1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (lgBlk m c t) (tgBlk m c t) (cwBlk m c t)) y).trans ?_
      rw [pay2_apply, pay6_apply, zero_add, h0, Finset.sum_range_one,
        show 125 * (t.val / 125) + 0 = t.val from by omega, ptNz_val]
    · have hp : t.val - 1 < n := by omega
      have hprev := ih (t.val - 1) hp ⟨t.val - 1, Nat.lt_of_le_of_lt (Nat.sub_le _ _) t.isLt⟩ rfl y
      dsimp only at hprev
      rw [show (t.val - 1) % 125 + 1 = t.val % 125 from by omega,
        show (t.val - 1) / 125 = t.val / 125 from by omega] at hprev
      by_cases h1 : t.val % 125 = 124
      · rw [outsAt0_C m c t h0 h1]; dsimp only
        refine (congrFun (sC1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (lgBlk m c t) (tgBlk m c t) (cwBlk m c t) (outsAt0 m c (t.val - 1) (Nat.lt_of_le_of_lt (Nat.sub_le _ _) t.isLt)).2.2.1 (outsAt0 m c (t.val - 1) (Nat.lt_of_le_of_lt (Nat.sub_le _ _) t.isLt)).2.2.2) y).trans ?_
        rw [pay2_apply, hprev, Finset.sum_range_succ, Nat.div_add_mod, ptNz_val]
      · rw [outsAt0_B m c t h0 h1]; dsimp only
        refine (congrFun (sB1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (lgBlk m c t) (tgBlk m c t) (cwBlk m c t) (outsAt0 m c (t.val - 1) (Nat.lt_of_le_of_lt (Nat.sub_le _ _) t.isLt)).2.2.1 (outsAt0 m c (t.val - 1) (Nat.lt_of_le_of_lt (Nat.sub_le _ _) t.isLt)).2.2.2) y).trans ?_
        rw [pay2_apply, hprev, Finset.sum_range_succ, Nat.div_add_mod, ptNz_val]

/-- The running loss sum after point `t`: the loss vectors of the core's points up to `t`, summed. -/
theorem accSum_eq (c : Dev nD) (t : Fin cfg0.N) (y : S1x16000.Idx) :
    (outsAt0 m c t.val t.isLt).2.2.1 y
      = ∑ s ∈ Finset.range (t.val % 125 + 1), ptLoss m c (125 * (t.val / 125) + s) y :=
  accSum_aux m c t.val t rfl y

/-- The running count after point `t`: the indicator vectors of the core's points up to `t`, summed. -/
theorem accCnt_eq (c : Dev nD) (t : Fin cfg0.N) (y : S1x16000.Idx) :
    (outsAt0 m c t.val t.isLt).2.2.2 y
      = ∑ s ∈ Finset.range (t.val % 125 + 1), ptNz m c (125 * (t.val / 125) + s) y :=
  accCnt_aux m c t.val t rfl y

/-- At a core's last step the loss output is the lane sum of the running loss sum. -/
theorem outSum_eq (c : Dev nD) (t : Fin cfg0.N) (h : t.val % 125 = 124) (z : S1x1x1.Idx) :
    (outsAt0 m c t.val t.isLt).1 z = ∑ j : Fin 16000, (outsAt0 m c t.val t.isLt).2.2.1 (ix2 0 j) := by
  have h0 : ¬t.val % 125 = 0 := by omega
  have h1 : t.val % 125 = 124 := h
  rw [outsAt0_C m c t h0 h1]; dsimp only
  rw [oC3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (lgBlk m c t) (tgBlk m c t) (cwBlk m c t) (outsAt0 m c (t.val - 1) (Nat.lt_of_le_of_lt (Nat.sub_le _ _) t.isLt)).2.2.1 (outsAt0 m c (t.val - 1) (Nat.lt_of_le_of_lt (Nat.sub_le _ _) t.isLt)).2.2.2,
    sC0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (lgBlk m c t) (tgBlk m c t) (cwBlk m c t) (outsAt0 m c (t.val - 1) (Nat.lt_of_le_of_lt (Nat.sub_le _ _) t.isLt)).2.2.1 (outsAt0 m c (t.val - 1) (Nat.lt_of_le_of_lt (Nat.sub_le _ _) t.isLt)).2.2.2, pay3_apply]

/-- At a core's last step the count output is the lane sum of the running count. -/
theorem outCnt_eq (c : Dev nD) (t : Fin cfg0.N) (h : t.val % 125 = 124) (z : S1x1x1.Idx) :
    (outsAt0 m c t.val t.isLt).2.1 z = ∑ j : Fin 16000, (outsAt0 m c t.val t.isLt).2.2.2 (ix2 0 j) := by
  have h0 : ¬t.val % 125 = 0 := by omega
  have h1 : t.val % 125 = 124 := h
  rw [outsAt0_C m c t h0 h1]; dsimp only
  rw [oC4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (lgBlk m c t) (tgBlk m c t) (cwBlk m c t) (outsAt0 m c (t.val - 1) (Nat.lt_of_le_of_lt (Nat.sub_le _ _) t.isLt)).2.2.1 (outsAt0 m c (t.val - 1) (Nat.lt_of_le_of_lt (Nat.sub_le _ _) t.isLt)).2.2.2,
    sC1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (lgBlk m c t) (tgBlk m c t) (cwBlk m c t) (outsAt0 m c (t.val - 1) (Nat.lt_of_le_of_lt (Nat.sub_le _ _) t.isLt)).2.2.1 (outsAt0 m c (t.val - 1) (Nat.lt_of_le_of_lt (Nat.sub_le _ _) t.isLt)).2.2.2, pay4_apply]

end Cert.KernelIdeal.Accum

end
-- ==== Proof.ArrOut.lean ====
/-
  The two [2, 1, 1] output arrays after the region. Output block `q` (one entry) is written back once, after point
  `125·q + 124`, the last step of core `q`; the two blocks tile the array. So entry `q` of each array is what that point
  left in the output's buffer.
-/
import proofs.«405455_j32727650795653_2_alg».proof.Proof.Gen.KernelIdeal.Frame
import Idealize.ShloMosaic.Lib.Pipeline.Value
import Idealize.ShloMosaic.Lib.ValueIdx

noncomputable section

open scoped BigOperators

namespace Cert.KernelIdeal.ArrOut

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The last point of core `q`. -/
def lastPt (q : Fin 2) : Fin cfg0.N := ⟨125 * q.val + 124, by have := q.isLt; rw [show cfg0.N = 250 from N_0]; omega⟩

/-- The loss output array after the region, as a [2, 1, 1] array of floats. -/
abbrev sumArr (c : Dev nD) : Vec F S2x1x1 .f32 := (dats m 0 c).arrAt 3 cfg0.N
/-- The count output array after the region, as a [2, 1, 1] array of floats. -/
abbrev cntArr (c : Dev nD) : Vec F S2x1x1 .f32 := (dats m 0 c).arrAt 4 cfg0.N

/-! ## Where the two outputs' blocks sit

Both outputs have block [1, 1, 1] and block index (core, 0, 0): the block of point `t` is the one entry `t / 125`. -/

/-- The block index of the loss output at point `t`: `(t / 125, 0, 0)`. -/
theorem index0_3 : ∀ t : Fin cfg0.N, (cfg0.win 3).index t (0 : Fin 3) = t.val / 125
    ∧ (cfg0.win 3).index t (1 : Fin 3) = 0 ∧ (cfg0.win 3).index t (2 : Fin 3) = 0 := by decide +kernel

/-- The block index of the count output at point `t`: `(t / 125, 0, 0)`. -/
theorem index0_4 : ∀ t : Fin cfg0.N, (cfg0.win 4).index t (0 : Fin 3) = t.val / 125
    ∧ (cfg0.win 4).index t (1 : Fin 3) = 0 ∧ (cfg0.win 4).index t (2 : Fin 3) = 0 := by decide +kernel

/-- Every block size is 1. -/
theorem size_one : ∀ a : Fin 3, S1x1x1.size a = 1 := by decide

/-- The one element of the loss output's block at point `t` sits in the array at the block index: on each axis the
    coordinate is `index · 1 + 0`. -/
theorem emb0_3 (t : Fin cfg0.N) (y : S1x1x1.Idx) (a : Fin 3) :
    ((((cfg0.win 3).blk t).view.emb y) a : Nat) = (cfg0.win 3).index t a := by
  have hy : (y a : Nat) < 1 := Nat.lt_of_lt_of_eq (y a).isLt (size_one a)
  have hs : (cfg0.win 3).size a = 1 := size_one a
  show ((((cfg0.win 3).rect t).emb y) a : Nat) = _
  rw [Pipeline.Window.rect_emb_val, hs]
  omega

/-- The same for the count output. -/
theorem emb0_4 (t : Fin cfg0.N) (y : S1x1x1.Idx) (a : Fin 3) :
    ((((cfg0.win 4).blk t).view.emb y) a : Nat) = (cfg0.win 4).index t a := by
  have hy : (y a : Nat) < 1 := Nat.lt_of_lt_of_eq (y a).isLt (size_one a)
  have hs : (cfg0.win 4).size a = 1 := size_one a
  show ((((cfg0.win 4).rect t).emb y) a : Nat) = _
  rw [Pipeline.Window.rect_emb_val, hs]
  omega

/-- Two different points that write the loss output's block back write different entries: both have `t % 125 = 124`,
    and an entry under both blocks would have first coordinate `t / 125 = t' / 125`. -/
theorem disj0_3 : ∀ t t' : Fin cfg0.N, (cfg0.win 3).flush t = true → (cfg0.win 3).flush t' = true → t ≠ t' →
    Disjoint ((cfg0.win 3).blk t).view.set ((cfg0.win 3).blk t').view.set := by
  intro t t' hf hf' hne
  rw [flush0_3] at hf hf'
  refine Finset.disjoint_left.mpr fun {i} hi hi' => hne (Fin.ext ?_)
  obtain ⟨y, -, rfl⟩ := Finset.mem_map.mp hi
  obtain ⟨y', -, e⟩ := Finset.mem_map.mp hi'
  have h0 := congrArg (fun j => (j (0 : Fin 3) : Nat)) e
  dsimp only at h0
  rw [emb0_3 t' y' 0, emb0_3 t y 0, (index0_3 t).1, (index0_3 t').1] at h0
  omega

/-- The same for the count output. -/
theorem disj0_4 : ∀ t t' : Fin cfg0.N, (cfg0.win 4).flush t = true → (cfg0.win 4).flush t' = true → t ≠ t' →
    Disjoint ((cfg0.win 4).blk t).view.set ((cfg0.win 4).blk t').view.set := by
  intro t t' hf hf' hne
  rw [flush0_4] at hf hf'
  refine Finset.disjoint_left.mpr fun {i} hi hi' => hne (Fin.ext ?_)
  obtain ⟨y, -, rfl⟩ := Finset.mem_map.mp hi
  obtain ⟨y', -, e⟩ := Finset.mem_map.mp hi'
  have h0 := congrArg (fun j => (j (0 : Fin 3) : Nat)) e
  dsimp only at h0
  rw [emb0_4 t' y' 0, emb0_4 t y 0, (index0_4 t).1, (index0_4 t').1] at h0
  omega

/-- The last point of core `q` as a number. -/
theorem lastPt_val (q : Fin 2) : (lastPt q).val = 125 * q.val + 124 := rfl

/-- The last point of core `q` writes both outputs' blocks back. -/
theorem lastPt_mod (q : Fin 2) : (lastPt q).val % 125 = 124 := by rw [lastPt_val]; omega

/-- The last point of core `q` lies in core `q`'s run. -/
theorem lastPt_div (q : Fin 2) : (lastPt q).val / 125 = q.val := by rw [lastPt_val]; omega

/-- The block of the loss output at core `q`'s last point is entry `q` of the array. -/
theorem emb_lastPt_3 (q : Fin 2) :
    ((cfg0.win 3).blk (lastPt q)).view.emb (ix3 0 0 0 : S1x1x1.Idx) = (ix3 q 0 0 : S2x1x1.Idx) := by
  funext a
  apply Fin.ext
  rw [emb0_3 (lastPt q) _ a]
  obtain ⟨i0, i1, i2⟩ := index0_3 (lastPt q)
  match a with
  | ⟨0, _⟩ => exact i0.trans (lastPt_div q)
  | ⟨1, _⟩ => exact i1
  | ⟨2, _⟩ => exact i2

/-- The block of the count output at core `q`'s last point is entry `q` of the array. -/
theorem emb_lastPt_4 (q : Fin 2) :
    ((cfg0.win 4).blk (lastPt q)).view.emb (ix3 0 0 0 : S1x1x1.Idx) = (ix3 q 0 0 : S2x1x1.Idx) := by
  funext a
  apply Fin.ext
  rw [emb0_4 (lastPt q) _ a]
  obtain ⟨i0, i1, i2⟩ := index0_4 (lastPt q)
  match a with
  | ⟨0, _⟩ => exact i0.trans (lastPt_div q)
  | ⟨1, _⟩ => exact i1
  | ⟨2, _⟩ => exact i2

/-- Entry `q` of the loss output array after the region. -/
theorem sumArr_apply (c : Dev nD) (q : Fin 2) :
    sumArr m c (ix3 q 0 0) = (outsAt0 m c (lastPt q).val (lastPt q).isLt).1 (ix3 0 0 0) := by
  -- the block of the last point of core `q` is written back there, and no other writing point's block meets it
  have hf : (cfg0.win 3).flush (lastPt q) = true := (flush0_3 _).2 (lastPt_mod q)
  have h := Pipeline.Dat.arrAt_emb_eq_flushed (dats m 0 c) 3 disj0_3 (lastPt q) hf (ix3 0 0 0 : S1x1x1.Idx)
  rw [emb_lastPt_3 q] at h
  show (dats m 0 c).arrAt 3 cfg0.N (ix3 q 0 0) = _
  rw [h, cast_eq]
  -- what is written back is the whole block the point left in the output's buffer
  show (dats m 0 c).after 3 (lastPt q) _ = _
  rw [after0_3]
  rfl

/-- Entry `q` of the count output array after the region. -/
theorem cntArr_apply (c : Dev nD) (q : Fin 2) :
    cntArr m c (ix3 q 0 0) = (outsAt0 m c (lastPt q).val (lastPt q).isLt).2.1 (ix3 0 0 0) := by
  have hf : (cfg0.win 4).flush (lastPt q) = true := (flush0_4 _).2 (lastPt_mod q)
  have h := Pipeline.Dat.arrAt_emb_eq_flushed (dats m 0 c) 4 disj0_4 (lastPt q) hf (ix3 0 0 0 : S1x1x1.Idx)
  rw [emb_lastPt_4 q] at h
  show (dats m 0 c).arrAt 4 cfg0.N (ix3 q 0 0) = _
  rw [h, cast_eq]
  show (dats m 0 c).after 4 (lastPt q) _ = _
  rw [after0_4]
  rfl

end Cert.KernelIdeal.ArrOut

end
-- ==== Proof.Tail.lean ====
/-
  The host operations after the region, read at the two results: each output array's two entries are added, the loss
  total is divided by the f32 word of 4000000 (the second result) and by the count total plus `ε` (the first).
-/
import proofs.«405455_j32727650795653_2_alg».proof.Proof.ArrOut
import proofs.«405455_j32727650795653_2_alg».proof.Proof.LossSpec
import Idealize.ShloMosaic.Lib.Pipeline.Value
import Idealize.ShloMosaic.Lib.ValueIdx
import Idealize.ShloMosaic.Lib.StableHlo.Run

noncomputable section

open scoped BigOperators

namespace Cert.KernelIdeal.Tail

open Cert.KernelIdeal Cert.KernelIdeal.Gen Cert.KernelIdeal.ArrOut Cert.LossSpec
open Idealize.ShloMosaic Idealize.ShloMosaic.TcCoe Idealize.ShloMosaic.ValueIdx Idealize.SL.Sem

variable (m : (ℓ : Loc nD τ sig) → Buf (Elt Ideal) ℓ)

/-! ## One entry of a [2, 1, 1] array through the slice and the reshape to a scalar -/

/-- Entry `(0, 0, 0)` of the array, sliced out and reshaped to rank 0. -/
theorem read0 (A : Vec Ideal S2x1x1 .f32) (i : S_.Idx) :
    shapeCast S_ (extractStridedSlice S1x1x1 ![0, 0, 0] A slices_S2x1x1_S1x1x1_0_0_0) shapeCasts_S1x1x1_S_ i
      = A (ix3 0 0 0) := by
  refine (shapeCast_apply _ shapeCasts_S1x1x1_S_ i (ix3 0 0 0 : S1x1x1.Idx) rfl).trans ?_
  exact extractStridedSlice_apply ![0, 0, 0] A slices_S2x1x1_S1x1x1_0_0_0 (ix3 0 0 0 : S1x1x1.Idx) (ix3 0 0 0 : S2x1x1.Idx)
    (fun a => match a with | ⟨0, _⟩ => rfl | ⟨1, _⟩ => rfl | ⟨2, _⟩ => rfl)

/-- Entry `(1, 0, 0)` of the array, sliced out and reshaped to rank 0. -/
theorem read1 (A : Vec Ideal S2x1x1 .f32) (i : S_.Idx) :
    shapeCast S_ (extractStridedSlice S1x1x1 ![1, 0, 0] A slices_S2x1x1_S1x1x1_1_0_0) shapeCasts_S1x1x1_S_ i
      = A (ix3 1 0 0) := by
  refine (shapeCast_apply _ shapeCasts_S1x1x1_S_ i (ix3 0 0 0 : S1x1x1.Idx) rfl).trans ?_
  exact extractStridedSlice_apply ![1, 0, 0] A slices_S2x1x1_S1x1x1_1_0_0 (ix3 0 0 0 : S1x1x1.Idx) (ix3 1 0 0 : S2x1x1.Idx)
    (fun a => match a with | ⟨0, _⟩ => rfl | ⟨1, _⟩ => rfl | ⟨2, _⟩ => rfl)

/-- The loss output array after the region is what the host operations read at its reference. -/
theorem arr3_eq (c : Dev nD) :
    Pipeline.withArrays (cfgs 0).spec c (V0 m c) (fun w => (dats m 0 c).arrAt w (cfgs 0).N) (Proc.devRef .tc main_v3_0)
      = sumArr m c :=
  Pipeline.withArrays_arr spec0 launch0.win.arr_inj c _ _ 3

/-- The count output array after the region is what the host operations read at its reference. -/
theorem arr4_eq (c : Dev nD) :
    Pipeline.withArrays (cfgs 0).spec c (V0 m c) (fun w => (dats m 0 c).arrAt w (cfgs 0).N) (Proc.devRef .tc main_v3_1)
      = cntArr m c :=
  Pipeline.withArrays_arr spec0 launch0.win.arr_inj c _ _ 4

/-- The first result after the host tail, from the two output arrays after the region. -/
theorem v16_eq (c : Dev nD) (i : S_.Idx) :
    Pipeline.afterTail₀ cfgs (dats m) 0 (V0 m) [hostOps1] c main_v16 i
      = Ideal.div (sumArr m c (ix3 0 0 0) + sumArr m c (ix3 1 0 0))
          ((cntArr m c (ix3 0 0 0) + cntArr m c (ix3 1 0 0)) + eps) := by
  unfold Pipeline.afterTail₀
  show StableHlo.after hostOps1 _ (Proc.devRef .tc main_v16) i = _
  after_results
  rw [arr3_eq, arr4_eq]
  generalize sumArr m c = A
  generalize cntArr m c = B
  simp only [Host.divf, Ideal.hostDivf_def, addf_apply, constant_apply]
  have a0 := read0 A i
  have a1 := read1 A i
  have b0 := read0 B i
  have b1 := read1 B i
  exact congrArg₂ Ideal.div (congrArg₂ (· + ·) a0 a1) (congrArg₂ (· + ·) (congrArg₂ (· + ·) b0 b1) rfl)

/-- The second result after the host tail. -/
theorem v14_eq (c : Dev nD) (i : S_.Idx) :
    Pipeline.afterTail₀ cfgs (dats m) 0 (V0 m) [hostOps1] c main_v14 i
      = Ideal.div (sumArr m c (ix3 0 0 0) + sumArr m c (ix3 1 0 0)) (Ideal.ofBits .f32 0x4A742400#32) := by
  unfold Pipeline.afterTail₀
  show StableHlo.after hostOps1 _ (Proc.devRef .tc main_v14) i = _
  after_results
  rw [arr3_eq]
  generalize sumArr m c = A
  simp only [Host.divf, Ideal.hostDivf_def, addf_apply, constant_apply]
  have a0 := read0 A i
  have a1 := read1 A i
  exact congrArg₂ Ideal.div (congrArg₂ (· + ·) a0 a1) rfl

end Cert.KernelIdeal.Tail

end
-- ==== Proof.KernelTotal.lean ====
/-
  The idealized kernel's two results are the specification's. The loss output of core `q` is the sum over the 16000
  lanes and the core's 125 steps of the row losses of rows `(125·q + s)·16000 + j`; adding the two cores' outputs gives
  the sum over all 4,000,000 rows, regrouped; the count output likewise; and the host tail forms the two quotients.
  The label range is used at every lane (the one-hot compare picks the label's class only for a label in range).
-/
import proofs.«405455_j32727650795653_2_alg».proof.Proof.Accum
import proofs.«405455_j32727650795653_2_alg».proof.Proof.ArrOut
import proofs.«405455_j32727650795653_2_alg».proof.Proof.Tail

noncomputable section

open scoped BigOperators

namespace Cert.KernelIdeal.KernelTotal

open Cert.KernelIdeal Cert.KernelIdeal.Gen Cert.LossSpec
open Cert.KernelIdeal.BlockReads Cert.KernelIdeal.PointLoss Cert.KernelIdeal.Accum Cert.KernelIdeal.ArrOut Cert.KernelIdeal.Tail
open Idealize.ShloMosaic Idealize.ShloMosaic.TcCoe Idealize.ShloMosaic.ValueIdx Idealize.SL.Sem

variable (m : (ℓ : Loc nD τ sig) → Buf (Elt Ideal) ℓ)

/-- The three argument arrays on core `c`, at their literal types. -/
abbrev argX (c : Dev nD) : (⟨2, ![4000000, 9]⟩ : Shape).Idx → EReal := m ((c : Thread nD τ).loc main_arg0)
abbrev argT (c : Dev nD) : (⟨1, ![4000000]⟩ : Shape).Idx → BitVec 32 := m ((c : Thread nD τ).loc main_arg1)
abbrev argW (c : Dev nD) : (⟨1, ![9]⟩ : Shape).Idx → EReal := m ((c : Thread nD τ).loc main_arg2)

/-- Lane `j` of point `n`'s loss vector is the loss of row `16000·n + j`. -/
theorem ptLoss_apply (c : Dev nD) (hT : InRange (argT m c)) (n : ℕ) (hn : n < 250) (j : Fin 16000) :
    ptLoss m c n (ix2 0 j) = lossN (argX m c) (argT m c) (argW m c) (n * 16000 + j.val) := by
  have hN : n < cfg0.N := lt_of_lt_of_eq hn N_0.symm
  have hr : n * 16000 + j.val < 4000000 := row_lt ⟨n, hN⟩ j
  have ht : (tgBlk m c ⟨n, hN⟩ (ix2 0 j)).toNat < 9 := by
    rw [tgBlk_apply m c ⟨n, hN⟩ j]; exact hT ⟨n * 16000 + j.val, hr⟩
  unfold ptLoss lossN
  rw [dif_pos hN, dif_pos hr, pay7_apply _ _ _ j ht]
  unfold lossAt
  rw [tgBlk_apply m c ⟨n, hN⟩ j]
  congr 1
  · funext k; exact lgBlk_apply m c ⟨n, hN⟩ k j
  · funext k; exact cwBlk_apply m c ⟨n, hN⟩ k

/-- Lane `j` of point `n`'s indicator vector is the indicator of row `16000·n + j`'s loss. -/
theorem ptNz_apply (c : Dev nD) (hT : InRange (argT m c)) (n : ℕ) (hn : n < 250) (j : Fin 16000) :
    ptNz m c n (ix2 0 j) = nzOf (lossN (argX m c) (argT m c) (argW m c) (n * 16000 + j.val)) := by
  have hN : n < cfg0.N := lt_of_lt_of_eq hn N_0.symm
  rw [← ptLoss_apply m c hT n hn j]
  unfold ptNz ptLoss
  rw [dif_pos hN, dif_pos hN]
  exact pay8_apply _ _ _ j

/-- Core `q`'s loss output: the row losses of its 125 × 16000 rows, summed. -/
theorem core_sum (c : Dev nD) (hT : InRange (argT m c)) (q : Fin 2) :
    sumArr m c (ix3 q 0 0)
      = ∑ j ∈ Finset.range 16000, ∑ s ∈ Finset.range 125,
          lossN (argX m c) (argT m c) (argW m c) ((q.val * 125 + s) * 16000 + j) := by
  rw [sumArr_apply m c q, outSum_eq m c (lastPt q) (lastPt_mod q), ← Fin.sum_univ_eq_sum_range]
  refine Finset.sum_congr rfl fun j _ => ?_
  rw [accSum_eq m c (lastPt q) (ix2 0 j), lastPt_mod q, lastPt_div q]
  refine Finset.sum_congr rfl fun s hs => ?_
  have hs' : s < 125 := Finset.mem_range.mp hs
  have hq := q.isLt
  rw [ptLoss_apply m c hT (125 * q.val + s) (by omega) j, Nat.mul_comm 125 q.val]

/-- Core `q`'s count output: the indicators of its rows' losses, summed. -/
theorem core_cnt (c : Dev nD) (hT : InRange (argT m c)) (q : Fin 2) :
    cntArr m c (ix3 q 0 0)
      = ∑ j ∈ Finset.range 16000, ∑ s ∈ Finset.range 125,
          nzOf (lossN (argX m c) (argT m c) (argW m c) ((q.val * 125 + s) * 16000 + j)) := by
  rw [cntArr_apply m c q, outCnt_eq m c (lastPt q) (lastPt_mod q), ← Fin.sum_univ_eq_sum_range]
  refine Finset.sum_congr rfl fun j _ => ?_
  rw [accCnt_eq m c (lastPt q) (ix2 0 j), lastPt_mod q, lastPt_div q]
  refine Finset.sum_congr rfl fun s hs => ?_
  have hs' : s < 125 := Finset.mem_range.mp hs
  have hq := q.isLt
  rw [ptNz_apply m c hT (125 * q.val + s) (by omega) j, Nat.mul_comm 125 q.val]

/-- The two cores' loss outputs add up to the sum of all row losses. -/
theorem total_sum (c : Dev nD) (hT : InRange (argT m c)) :
    sumArr m c (ix3 0 0 0) + sumArr m c (ix3 1 0 0) = totalLoss (argX m c) (argT m c) (argW m c) := by
  unfold totalLoss
  rw [sum_rows_regroup, Finset.sum_range_succ, Finset.sum_range_one, core_sum m c hT 0, core_sum m c hT 1]
  rfl

/-- The two cores' count outputs add up to the number of row losses above `ε`. -/
theorem total_cnt (c : Dev nD) (hT : InRange (argT m c)) :
    cntArr m c (ix3 0 0 0) + cntArr m c (ix3 1 0 0) = totalNz (argX m c) (argT m c) (argW m c) := by
  unfold totalNz
  rw [sum_rows_regroup, Finset.sum_range_succ, Finset.sum_range_one, core_cnt m c hT 0, core_cnt m c hT 1]
  rfl

/-- The first result of the idealized kernel, for labels in the label range. -/
theorem v16_eq_res0 (c : Dev nD) (hT : InRange (m ((c : Thread nD τ).loc main_arg1))) (i : S_.Idx) :
    Pipeline.afterTail₀ cfgs (dats m) 0 (V0 m) [hostOps1] c main_v16 i
      = res0 (m ((c : Thread nD τ).loc main_arg0)) (m ((c : Thread nD τ).loc main_arg1)) (m ((c : Thread nD τ).loc main_arg2)) := by
  rw [v16_eq m c i, total_sum m c hT, total_cnt m c hT]
  rfl

/-- The second result of the idealized kernel, for labels in the label range. -/
theorem v14_eq_res1 (c : Dev nD) (hT : InRange (m ((c : Thread nD τ).loc main_arg1))) (i : S_.Idx) :
    Pipeline.afterTail₀ cfgs (dats m) 0 (V0 m) [hostOps1] c main_v14 i
      = res1 (m ((c : Thread nD τ).loc main_arg0)) (m ((c : Thread nD τ).loc main_arg1)) (m ((c : Thread nD τ).loc main_arg2)) := by
  rw [v14_eq m c i, total_sum m c hT]
  rfl

end Cert.KernelIdeal.KernelTotal

end
-- ==== Proof.PreRange.lean ====
/-
  The precondition read at the labels: it says (beside the finiteness of the float inputs) that every label word is,
  read signed, at least 0 and below 9; such a word's value is below 9.
-/
import proofs.«405455_j32727650795653_2_alg».proof.Defs
import proofs.«405455_j32727650795653_2_alg».proof.Proof.Gen.KernelIdeal
import proofs.«405455_j32727650795653_2_alg».proof.Proof.Gen.Pre_finite_inputs
import proofs.«405455_j32727650795653_2_alg».proof.Proof.LossSpec
import Idealize.ShloMosaic.Lib.ReduceAll
import Idealize.ShloMosaic.Lib.StableHlo.Predicate

noncomputable section

open scoped BigOperators

namespace Cert.PreRange

open Idealize.ShloMosaic Idealize.ShloMosaic.ValueIdx Idealize.SL.Sem

/-- A word that is at least 0 and below 9, read signed, is below 9 read unsigned. -/
theorem toNat_lt_nine (w : BitVec 32) (h0 : IntOp.cmpi .sge w (0#32) = 1#1) (h9 : IntOp.cmpi .slt w (9#32) = 1#1) :
    w.toNat < 9 := by
  rw [IntOp.cmpi_sge] at h0
  rw [IntOp.cmpi_slt] at h9
  have z : (0#32 : BitVec 32).toInt = 0 := by decide
  have n : (9#32 : BitVec 32).toInt = 9 := by decide
  rw [z] at h0
  rw [n] at h9
  rw [BitVec.toInt_eq_toNat_cond] at h0 h9
  have hw := w.isLt
  split at h0 <;> omega

/-- The scalar shape has one index. -/
instance : Subsingleton Cert.Pre_finite_inputs.S_.Idx := ⟨fun a b => funext fun d => d.elim0⟩

/-- The printed precondition at any float instance: all ones only if every label is in the label range. -/
theorem inRange_of_fn {F : FTy → Type} [FloatOps F] (x0 : FVec F Cert.Pre_finite_inputs.S4000000x9 .f32)
    (x1 : IVec Cert.Pre_finite_inputs.S4000000 32) (x2 : FVec F Cert.Pre_finite_inputs.S9 .f32)
    (h : Cert.Pre_finite_inputs.fn (F := F) x0 x1 x2 = fun _ => 1#1) : Cert.LossSpec.InRange x1 := by
  -- the predicate's one word is the conjunction of three tests; the third is the test of the labels
  have e := congrFun h ValueIdx.ix0
  dsimp only [Cert.Pre_finite_inputs.fn] at e
  obtain ⟨-, eT⟩ := IntOp.andi_eq_one.1 e
  intro i
  -- the conjunction over all rows is 1, so row i's two comparisons are
  have l := Host.reduce_andi_all _ _ _ _ _ eT (ix1 i)
  obtain ⟨l0, l9⟩ := IntOp.andi_eq_one.1 l
  exact toNat_lt_nine _ l0 l9

/-- The idealized kernel's precondition gives the label range of its label argument, on every device. -/
theorem inRange_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.LossSpec.InRange (m ((c.tc : Thread Cert.KernelIdeal.nD Cert.KernelIdeal.τ).loc Cert.KernelIdeal.main_arg1)) :=
  inRange_of_fn _ _ _ (h c)

end Cert.PreRange

end
-- ==== Proof.lean ====
/-
  A class-weighted cross-entropy loss over 4,000,000 rows and 9 classes, as a Pallas kernel on a 2 × 125 grid against
  its jnp reference, equal over the extended reals for labels in the label range 0 ≤ t < 9.

  Both programs compute, for row i with logits x and label t,
      loss_i = (-(w t)) · ((x t − max_k x k) − log ∑_k exp (x k − max_k x k)),
  and return  S / (C + ε)  and  S / 4000000,  S the sum of the losses, C the number of losses above ε.
  The reference gathers `x t` and `w t` (neither gather wraps, clamps or fills for a label in range); the kernel takes them
  as sums against the one-hot vector of t over the class axis, which pick exactly the label's entry since 0 · x = 0
  on the extended reals. The kernel adds the losses lane by lane over the 125 steps of each core, sums the 16000 lanes at
  the core's last step, and the host adds the two cores: the same 4,000,000 terms as the reference's one sum, regrouped,
  and addition on the extended reals is commutative and associative. The count is a sum of zeros and ones on both sides
  (an integer sum that cannot wrap, read as a real, on the reference's). Finiteness of the inputs is not used.

  The two kernel frames are the generated ones; the reference's is its run with the results dropped, the run read stage
  by stage over its straight line of host operations. The ideal pass rewrote nothing, so the kernel's idealization is
  its own text.
-/
import proofs.«405455_j32727650795653_2_alg».proof.Defs
import proofs.«405455_j32727650795653_2_alg».proof.Proof.Gen.Kernel
import proofs.«405455_j32727650795653_2_alg».proof.Proof.Gen.Kernel.Frame
import proofs.«405455_j32727650795653_2_alg».proof.Proof.Gen.KernelIdeal
import proofs.«405455_j32727650795653_2_alg».proof.Proof.Gen.KernelIdeal.Frame
import proofs.«405455_j32727650795653_2_alg».proof.Proof.Gen.ReferenceIdeal
import proofs.«405455_j32727650795653_2_alg».proof.Proof.Gen.Pre_finite_inputs
import proofs.«405455_j32727650795653_2_alg».proof.Proof.RefOps
import proofs.«405455_j32727650795653_2_alg».proof.Proof.RefRead
import proofs.«405455_j32727650795653_2_alg».proof.Proof.RefStages
import proofs.«405455_j32727650795653_2_alg».proof.Proof.RefLoss
import proofs.«405455_j32727650795653_2_alg».proof.Proof.KernelTotal
import proofs.«405455_j32727650795653_2_alg».proof.Proof.PreRange
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.Stages.run (F := Ideal) m ρ)

/-- Both programs end with the specification's two results of the (agreeing) arguments. -/
theorem algebraic : Cert.algebraic_KernelIdeal_ReferenceIdeal := by
  intro m ρ m' ρ' hpre hagree
  refine ⟨fun c _ => Cert.LossSpec.res0 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c _ => Cert.LossSpec.res1 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · -- the kernel: the frame run's post read at the two results and the three arguments
    refine (θ_run (Cert.KernelIdeal.defs (F := Ideal)) _ _).mono (fun r h c => ?_) (Cert.KernelIdeal.Gen.run_main m ρ)
    have hT := Cert.PreRange.inRange_of_pre m hpre c
    refine ⟨?_, ?_, ?_, ?_, ?_⟩
    · exact ((h c).2 Cert.KernelIdeal.main_v16 (Pipeline.mem_restRefs_of _ (by decide) (by decide))).trans
        (funext fun i => Cert.KernelIdeal.KernelTotal.v16_eq_res0 m c hT i)
    · exact ((h c).2 Cert.KernelIdeal.main_v14 (Pipeline.mem_restRefs_of _ (by decide) (by decide))).trans
        (funext fun i => Cert.KernelIdeal.KernelTotal.v14_eq_res1 m c hT i)
    · exact ((h c).2 Cert.KernelIdeal.main_arg0 (Pipeline.mem_restRefs_of _ (by decide) (by decide))).trans
        (Cert.KernelIdeal.Gen.W_main_arg0 m (Cert.KernelIdeal.Gen.dats m) c)
    · exact ((h c).2 Cert.KernelIdeal.main_arg1 (Pipeline.mem_restRefs_of _ (by decide) (by decide))).trans
        (Cert.KernelIdeal.Gen.W_main_arg1 m (Cert.KernelIdeal.Gen.dats m) c)
    · exact ((h c).2 Cert.KernelIdeal.main_arg2 (Pipeline.mem_restRefs_of _ (by decide) (by decide))).trans
        (Cert.KernelIdeal.Gen.W_main_arg2 m (Cert.KernelIdeal.Gen.dats m) c)
  · -- the reference: its run ends with the two last stages of its own arguments, which are the specification's
    refine (θ_run Cert.ReferenceIdeal.defs _ _).mono (fun r h c => ?_) (Cert.ReferenceIdeal.Stages.run (F := Ideal) m' ρ')
    have hT := Cert.PreRange.inRange_of_pre m hpre c
    obtain ⟨e0, e1, e2⟩ := hagree c
    obtain ⟨h20, h22, ha0, ha1, ha2⟩ := h c
    rw [← e1] at hT
    refine ⟨?_, ?_, ha0, ha1, ha2⟩
    · rw [h20]
      funext i
      dsimp only
      rw [← e0, ← e1, ← e2]
      exact Cert.ReferenceIdeal.RefLoss.v20_eq _ _ _ hT i
    · rw [h22]
      funext i
      dsimp only
      rw [← e0, ← e1, ← e2]
      exact Cert.ReferenceIdeal.RefLoss.v22_eq _ _ _ hT i

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
